-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S16384 : Shape := ⟨1, ![16384]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x512 .f32) (main_arg1 : FVec F S1024x512 .f32) (main_arg2 : IVec S16384 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 1024#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x512 : Shape := ⟨2, ![16384, 512]⟩
abbrev S1024x512 : Shape := ⟨2, ![1024, 512]⟩
abbrev S16384 : Shape := ⟨1, ![16384]⟩
abbrev S512x1024 : Shape := ⟨2, ![512, 1024]⟩
abbrev S_ : Shape := ⟨0, ![]⟩
abbrev S1024 : Shape := ⟨1, ![1024]⟩
abbrev S1x1024 : Shape := ⟨2, ![1, 1024]⟩
abbrev S16384x1 : Shape := ⟨2, ![16384, 1]⟩
abbrev S2x1x128 : Shape := ⟨3, ![2, 1, 128]⟩
abbrev S1024x1 : Shape := ⟨2, ![1024, 1]⟩
abbrev S1x1x128 : Shape := ⟨3, ![1, 1, 128]⟩
abbrev S1x1 : Shape := ⟨2, ![1, 1]⟩
abbrev S1024x1024 : Shape := ⟨2, ![1024, 1024]⟩
abbrev S1 : Shape := ⟨1, ![1]⟩
abbrev S1x128 : Shape := ⟨2, ![1, 128]⟩
abbrev S2x1x1 : Shape := ⟨3, ![2, 1, 1]⟩
abbrev S2 : Shape := ⟨1, ![2]⟩

abbrev nBuf : Space → Nat
  | .hbm => 25
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S16384, .i32⟩
  | .hbm, ⟨3, _⟩ => ⟨S512x1024, .f32⟩
  | .hbm, ⟨4, _⟩ => ⟨S512x1024, .bf16⟩
  | .hbm, ⟨5, _⟩ => ⟨S1024x512, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S2x1x128, .f32⟩
  | .hbm, ⟨19, _⟩ => ⟨S2x1x1, .f32⟩
  | .hbm, ⟨20, _⟩ => ⟨S2, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1x1024, .f32⟩
  | .local _ .vmem, ⟨4, _⟩ => ⟨S1024x1, .i32⟩
  | .local _ .vmem, ⟨5, _⟩ => ⟨S1024x1, .i32⟩
  | .local _ .vmem, ⟨6, _⟩ => ⟨S1x1x128, .f32⟩
  | .local _ .vmem, ⟨7, _⟩ => ⟨S1x1x128, .f32⟩
  | .local _ .vmem, ⟨8, _⟩ => ⟨S1x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_20 : BitVec 32 := 0#32
  let v47 : BitVec 1 := Scalar.cmpi .ne v46 c0_i32_20
  v47

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S1024x512_S512x1024_1_0 : S1024x512.Transposes [1, 0] S512x1024
  bitsLt_bf16_f32 : FTy.bits .bf16 < FTy.bits .f32
  reducesTo_S1024x512_S1024_d1 : S1024x512.ReducesTo [1] S1024
  h_S_ : 0 < S_.numel
  bcast_S1024_S1x1024_1 : S1024.BroadcastsInDim S1x1024 (![1] : Fin 1 → Fin S1x1024.rank)
  bcast_S_S16384 : S_.BroadcastsInDim S16384 (![] : Fin 0 → Fin S16384.rank)
  bcast_S16384_S16384x1_0 : S16384.BroadcastsInDim S16384x1 (![0] : Fin 1 → Fin S16384x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d1_w32 : S1024x1024.Iotas .tc 32 [1]
  reduces_S1024x1_S1 : S1024x1.Reduces [0] S1
  shapeCasts_S1_S1x1 : S1.ShapeCasts S1x1
  broadcasts_S1x1_S1x128 : S1x1.Broadcasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  slices_S2x1x128_S2x1x1_0_0_0 : S2x1x128.Slices ![0, 0, 0] S2x1x1
  shapeCasts_S2x1x1_S2 : S2x1x1.ShapeCasts S2
  reducesTo_S2_S_d0 : S2.ReducesTo [0] S_
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .i32 = 32 ∨ (Rect.block (s := S16384x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x512 : Shape := ⟨2, ![16384, 512]⟩
abbrev S1024x512 : Shape := ⟨2, ![1024, 512]⟩
abbrev S16384 : Shape := ⟨1, ![16384]⟩
abbrev S_ : Shape := ⟨0, ![]⟩
abbrev S16384x1 : Shape := ⟨2, ![16384, 1]⟩
abbrev S1024 : Shape := ⟨1, ![1024]⟩
abbrev S1x1024 : Shape := ⟨2, ![1, 1024]⟩
abbrev S512x1024 : Shape := ⟨2, ![512, 1024]⟩
abbrev S16384x1024 : Shape := ⟨2, ![16384, 1024]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S16384, .i32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x512, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S512x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1, .i32⟩
  | .hbm, ⟨41, _⟩ => ⟨S_, .i32⟩
  | .hbm, ⟨42, _⟩ => ⟨S16384x1, .i32⟩
  | .hbm, ⟨43, _⟩ => ⟨S16384x1, .i1⟩
  | .hbm, ⟨44, _⟩ => ⟨S_, .i32⟩
  | .hbm, ⟨45, _⟩ => ⟨S16384x1, .i32⟩
  | .hbm, ⟨46, _⟩ => ⟨S16384x1, .i32⟩
  | .hbm, ⟨47, _⟩ => ⟨S16384x1, .i32⟩
  | .hbm, ⟨48, _⟩ => ⟨S16384x1x1, .i32⟩
  | .hbm, ⟨49, _⟩ => ⟨S1, .i32⟩
  | .hbm, ⟨50, _⟩ => ⟨S_, .i32⟩
  | .hbm, ⟨51, _⟩ => ⟨S16384x1x1, .i32⟩
  | .hbm, ⟨52, _⟩ => ⟨S16384x1x1, .i1⟩
  | .hbm, ⟨53, _⟩ => ⟨S1x1x1, .i32⟩
  | .hbm, ⟨54, _⟩ => ⟨S16384x1x1, .i32⟩
  | .hbm, ⟨55, _⟩ => ⟨S16384x1x1, .i1⟩
  | .hbm, ⟨56, _⟩ => ⟨S16384x1x1, .i1⟩
  | .hbm, ⟨57, _⟩ => ⟨S_, .i1⟩
  | .hbm, ⟨58, _⟩ => ⟨S16384x1, .i1⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384, .f32⟩
  | .hbm, ⟨64, _⟩ => ⟨S16384, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_call0_cst_0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_cst_1 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_v18 : Ref sig .tc := ⟨.hbm, 39, rfl⟩
abbrev main_v19 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_cst_3 : Ref sig .tc := ⟨.hbm, 65, rfl⟩
abbrev main_v23 : Ref sig .tc := ⟨.hbm, 66, rfl⟩
abbrev main_cst_4 : Ref sig .tc := ⟨.hbm, 67, rfl⟩
abbrev main_v24 : Ref sig .tc := ⟨.hbm, 68, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1024x512_S1024_d1 : S1024x512.ReducesTo [1] S1024
  bcast_S1024_S1x1024_1 : S1024.BroadcastsInDim S1x1024 (![1] : Fin 1 → Fin S1x1024.rank)
  transposes_S1024x512_S512x1024_1_0 : S1024x512.Transposes [1, 0] S512x1024
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  reducesTo_S16384x1024_S16384_d1 : S16384x1024.ReducesTo [1] S16384
  bcast_S_S16384 : S_.BroadcastsInDim S16384 (![] : Fin 0 → Fin S16384.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  reducesTo_S16384_S_d0 : S16384.ReducesTo [0] S_
  dot_S16384x512_S512x1024_S16384x1024_1_0_0_1_n_n_wf : DotDims.WF S16384x512 S512x1024 S16384x1024 [1] [0] [0] [1] [] []
  gather_S16384x1024_S16384x1x1_S16384x1_n_1_0_0_1_2_11_wf : GatherDims.WF S16384x1024 S16384x1x1 S16384x1 [] [1] [0] [1] [0] 2 ![1, 1]

variable [Facts₀]

def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def gather_S16384x1024_S16384x1x1_S16384x1_n_1_0_0_1_2_11 : GatherDims S16384x1024 S16384x1x1 S16384x1 where
  offsetDims := []
  collapsedSliceDims := [1]
  operandBatchingDims := [0]
  startIndicesBatchingDims := [0]
  startIndexMap := [1]
  indexVectorDim := 2
  sliceSizes := ![1, 1]
  wf := gather_S16384x1024_S16384x1x1_S16384x1_n_1_0_0_1_2_11_wf

class Facts : Prop extends Facts₀ where

variable [Facts]
-- ==== Proof.PreFacts.lean ====
/-
  What the precondition says of the argument arrays: every entry of the two float arrays is a real number (its absolute
  value is below +∞), and every label, read unsigned, is below 1024 (it is at least 0 and below 1024 as a signed word).
-/
import proofs.«409414_j79328045957202_3_alg».proof.Pre_finite_inputs
import proofs.«409414_j79328045957202_3_alg».proof.Proof.Gen.Pre_finite_inputs
import Idealize.ShloMosaic.Lib.ReduceAll
import Idealize.ShloMosaic.Lib.ValueIdx
import Idealize.ShloMosaic.Lib.StableHlo.Predicate

noncomputable section

namespace Cert.Loss

open Idealize.ShloMosaic Idealize.ShloMosaic.ValueIdx

/-- The f32 pattern with every exponent bit set and no fraction bit denotes +∞. -/
private theorem inf_pattern : Ideal.ofBits .f32 0x7F800000#32 = (⊤ : EReal) := by
  simp [Ideal.ofBits, Ideal.ieee]

/-- An extended real whose absolute value max x (-x) lies strictly below +∞ is a real number:
    at x = ⊥ the maximum is -⊥ = ⊤, at x = ⊤ it is ⊤, and neither is below ⊤. -/
private theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- The same, stated on the comparison word: |x| < +∞ answered 1 makes x a real. -/
private theorem real_of_cmp (x : EReal)
    (h : Ideal.cmp .olt (max x (-x)) (Ideal.ofBits .f32 0x7F800000#32) = 1#1) : ∃ r : ℝ, x = (r : EReal) := by
  rw [inf_pattern] at h
  simp only [Ideal.cmp, StableHlo.Predicate.ofBool_eq_one_iff, decide_eq_true_eq] at h
  exact real_of_abs_lt_top x h

/-- A 32-bit word that is at least 0 and below 1024 as a signed number is below 1024 as an unsigned one:
    0 ≤ toInt rules out the upper half of the words, where toInt = toNat − 2³² is negative, and on the
    lower half toInt = toNat. -/
private theorem toNat_lt_of_signed (a : BitVec 32) (h0 : IntOp.cmpi .sge a 0#32 = 1#1) (h1 : IntOp.cmpi .slt a 1024#32 = 1#1) :
    a.toNat < 1024 := by
  have z : (0#32 : BitVec 32).toInt = 0 := by decide
  have k : (1024#32 : BitVec 32).toInt = 1024 := by decide
  simp only [IntOp.cmpi, StableHlo.Predicate.ofBool_eq_one_iff, BitVec.sle, BitVec.slt, decide_eq_true_eq, z, k] at h0 h1
  rw [BitVec.toInt_eq_toNat_cond] at h0 h1
  split at h0 <;> omega

/-- The precondition, all ones, gives: the float arrays hold reals, the labels are in [0, 1024). -/
theorem pre_facts (X : FVec Ideal Cert.Pre_finite_inputs.S16384x512 .f32) (Y : FVec Ideal Cert.Pre_finite_inputs.S1024x512 .f32)
    (D : IVec Cert.Pre_finite_inputs.S16384 32)
    (h : Cert.Pre_finite_inputs.fn (F := Ideal) X Y D = fun _ => 1#1) :
    (∀ i, ∃ x : ℝ, X i = (x : EReal)) ∧ (∀ i, ∃ y : ℝ, Y i = (y : EReal)) ∧ (∀ i, (D i).toNat < 1024) := by
  -- the rank-0 shape has one index
  haveI : Subsingleton Cert.Pre_finite_inputs.S_.Idx := ⟨fun a b => funext fun d => d.elim0⟩
  -- the precondition at that index: a conjunction of three all-reductions
  have h0 := congrFun h ValueIdx.ix0
  dsimp only [Cert.Pre_finite_inputs.fn] at h0
  obtain ⟨hXY, hD⟩ := IntOp.andi_eq_one.1 h0
  obtain ⟨hX, hY⟩ := IntOp.andi_eq_one.1 hXY
  refine ⟨fun i => ?_, fun i => ?_, fun i => ?_⟩
  · -- every element of |X| < +∞ is 1
    exact real_of_cmp (X i) (Host.reduce_andi_all _ _ _ _ ValueIdx.ix0 hX i)
  · exact real_of_cmp (Y i) (Host.reduce_andi_all _ _ _ _ ValueIdx.ix0 hY i)
  · -- every element of (D ≥ 0) ∧ (D < 1024) is 1
    obtain ⟨hge, hlt⟩ := IntOp.andi_eq_one.1 (Host.reduce_andi_all _ _ _ _ ValueIdx.ix0 hD i)
    exact toNat_lt_of_signed (D i) hge hlt

end Cert.Loss

end
-- ==== Proof.KPieces.lean ====
/-
  What one run of the kernel body leaves behind, as values of its inputs.

  With `s` the accumulator the body finds and `x0 … x3` the four input blocks, the body adds the sum of the block's
  1024 row losses to the accumulator: it leaves `s + Σ rows`, where `s` is the zero it has just stored when the point is
  the first of its core's eight, and what the point before left otherwise. At the last of the eight points it also stores the
  accumulator, laid along the 128 lanes, into the output block.
-/
import proofs.«409414_j79328045957202_3_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

/-- The zero offsets of a rank-2 store. -/
theorem hz2 : (![0, 0] : Fin 2 → Nat) = fun _ => 0 := funext fun a => by fin_cases a <;> rfl
/-- The zero offsets of a rank-3 store. -/
theorem hz3 : (![0, 0, 0] : Fin 3 → Nat) = fun _ => 0 := funext fun a => by fin_cases a <;> rfl

/-- A point that is neither first nor last of its core's eight: the accumulator grows by the block's sum. -/
theorem scratch_mid (c : Dev nD) (i : grid0.Coords) (arg2 : Memref sig .tc .vmem S1024x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1x1x128 .f32) (harg6 : arg6.IsWhole) (arg7 : Memref sig .tc .vmem S1x1 .f32) (harg7 : arg7.IsWhole) (hc0 : ¬cond0_0 i) (hc1 : ¬cond0_1 i)
    (x0 : Vec F S1024x512 .f32) (x1 : Vec F S512x1024 .bf16) (x2 : Vec F S1x1024 .f32) (x3 : Vec F S1024x1 .i32) (xs0 : Vec F S1x1 .f32) :
    sout0_B_0 c i arg2 harg2 arg3 harg3 arg4 harg4 arg5 harg5 arg6 harg6 arg7 harg7 hc0 hc1 x0 x1 x2 x3 xs0 = k0_pay1 (k0_pay4 x0 x1 x2 x3) xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, View.ld_unit_zero (S := S1024x512) hz2, View.ld_unit_zero (S := S512x1024) hz2, View.ld_unit_zero (S := S1x1024) hz2, View.ld_unit_zero (S := S1024x1) hz2, View.ld_unit_zero (S := S1x1) hz2, View.ld_unit_zero (S := S1x1x128) hz3]

/-- The last of a core's eight points: the accumulator grows by the block's sum, as at the points before it. -/
theorem scratch_last (c : Dev nD) (i : grid0.Coords) (arg2 : Memref sig .tc .vmem S1024x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1x1x128 .f32) (harg6 : arg6.IsWhole) (arg7 : Memref sig .tc .vmem S1x1 .f32) (harg7 : arg7.IsWhole) (hc0 : ¬cond0_0 i) (hc1 : cond0_1 i)
    (x0 : Vec F S1024x512 .f32) (x1 : Vec F S512x1024 .bf16) (x2 : Vec F S1x1024 .f32) (x3 : Vec F S1024x1 .i32) (xs0 : Vec F S1x1 .f32) :
    sout0_C_0 c i arg2 harg2 arg3 harg3 arg4 harg4 arg5 harg5 arg6 harg6 arg7 harg7 hc0 hc1 x0 x1 x2 x3 xs0 = k0_pay1 (k0_pay4 x0 x1 x2 x3) xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, View.ld_unit_zero (S := S1024x512) hz2, View.ld_unit_zero (S := S512x1024) hz2, View.ld_unit_zero (S := S1x1024) hz2, View.ld_unit_zero (S := S1024x1) hz2, View.ld_unit_zero (S := S1x1) hz2, View.ld_unit_zero (S := S1x1x128) hz3]

/-- The last of a core's eight points: the output block is the new accumulator laid along the lanes. -/
theorem out_last (c : Dev nD) (i : grid0.Coords) (arg2 : Memref sig .tc .vmem S1024x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1x1x128 .f32) (harg6 : arg6.IsWhole) (arg7 : Memref sig .tc .vmem S1x1 .f32) (harg7 : arg7.IsWhole) (hc0 : ¬cond0_0 i) (hc1 : cond0_1 i)
    (x0 : Vec F S1024x512 .f32) (x1 : Vec F S512x1024 .bf16) (x2 : Vec F S1x1024 .f32) (x3 : Vec F S1024x1 .i32) (xs0 : Vec F S1x1 .f32) :
    out0_C_4 c i arg2 harg2 arg3 harg3 arg4 harg4 arg5 harg5 arg6 harg6 arg7 harg7 hc0 hc1 x0 x1 x2 x3 xs0 = k0_pay2 (k0_pay1 (k0_pay4 x0 x1 x2 x3) xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S1x1) _ hz2]
  simp only [View.readAt_eq_ld, harg2.read_unread, harg3.read_unread, harg4.read_unread, harg5.read_unread, harg6.read_unread, harg7.read_unread, View.ld_unit_zero (S := S1024x512) hz2, View.ld_unit_zero (S := S512x1024) hz2, View.ld_unit_zero (S := S1x1024) hz2, View.ld_unit_zero (S := S1024x1) hz2, View.ld_unit_zero (S := S1x1) hz2, View.ld_unit_zero (S := S1x1x128) hz3]

/-- The first of a core's eight points: the accumulator is reset to zero, then grows by the block's sum. -/
theorem scratch_first (c : Dev nD) (i : grid0.Coords) (arg2 : Memref sig .tc .vmem S1024x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1x1x128 .f32) (harg6 : arg6.IsWhole) (arg7 : Memref sig .tc .vmem S1x1 .f32) (harg7 : arg7.IsWhole) (hc0 : cond0_0 i) (hc1 : ¬cond0_1 i)
    (x0 : Vec F S1024x512 .f32) (x1 : Vec F S512x1024 .bf16) (x2 : Vec F S1x1024 .f32) (x3 : Vec F S1024x1 .i32) :
    sout0_A_0 c i arg2 harg2 arg3 harg3 arg4 harg4 arg5 harg5 arg6 harg6 arg7 harg7 hc0 hc1 x0 x1 x2 x3 = k0_pay1 (k0_pay4 x0 x1 x2 x3) (k0_pay3 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, View.ld_unit_zero (S := S1024x512) hz2, View.ld_unit_zero (S := S512x1024) hz2, View.ld_unit_zero (S := S1x1024) hz2, View.ld_unit_zero (S := S1024x1) hz2, View.ld_unit_zero (S := S1x1) hz2, View.ld_unit_zero (S := S1x1x128) hz3]

end Cert.KernelIdeal.Pieces

end
-- ==== Proof.KAccum.lean ====
/-
  The accumulator over the grid, and the output array.

  The grid's sixteen points are two runs of eight, one per core. Write `S t` for the sum of the 1024 row losses of the
  feature block at point `t`. The accumulator after point `t` is `0 + S t` at the first point of a run and the previous
  accumulator plus `S t` at the others; the output block is written only at the last point of a run, as that accumulator
  laid along the lanes, into block `t / 8` of the [2, 1, 128] output array. So the array's entry (a, 0, l) is the
  accumulator after point `8 a + 7`.
-/
import proofs.«409414_j79328045957202_3_alg».proof.Proof.KPieces

noncomputable section

namespace Cert.KernelIdeal.Accum

open Idealize.ShloMosaic Idealize.ShloMosaic.TcCoe Idealize.SL.Sem Cert.KernelIdeal Cert.KernelIdeal.Gen Cert.KernelIdeal.Pieces
open Idealize.ShloMosaic.Pipeline (Dat)

variable {F : FTy → Type} [FloatOps F]
variable (m : (ℓ : Loc nD τ sig) → Buf (Elt F) ℓ) (ρ : Dev nD → PrngReg)

/-- The per-row losses of the blocks at point `t`. -/
def rows (c : Dev nD) (t : Fin cfg0.N) : FVec F S1024x1 .f32 :=
  k0_pay4 (iblk m c 0 t) (iblk m c 1 t) (iblk m c 2 t) (iblk m c 3 t)

/-- The accumulator after point `n`: restarted from zero at the first point of each run of eight. -/
def acc (c : Dev nD) : (n : ℕ) → n < cfg0.N → Vec F S1x1 .f32
  | 0, h => k0_pay1 (rows m c ⟨0, h⟩) (k0_pay3 (F := F))
  | n + 1, h =>
    if (n + 1) % 8 = 0 then k0_pay1 (rows m c ⟨n + 1, h⟩) (k0_pay3 (F := F))
    else k0_pay1 (rows m c ⟨n + 1, h⟩) (acc c n (Nat.lt_of_succ_lt h))

/-- What the carried accumulator holds after point `n` is `acc`: by induction on the point, case by case. -/
theorem scratch_eq (c : Dev nD) : ∀ (n : ℕ) (h : n < cfg0.N), (outsAt0 m c n h).2 = acc m c n h
  | 0, h => by
    rw [outsAt0_A m c ⟨0, h⟩ rfl (show ¬(0 : ℕ) % 8 = 7 by decide)]
    dsimp only
    rw [scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) _ _ (iblk m c 0 ⟨0, h⟩) (iblk m c 1 ⟨0, h⟩) (iblk m c 2 ⟨0, h⟩) (iblk m c 3 ⟨0, h⟩)]
    rfl
  | n + 1, h => by
    have hN : n + 1 < 16 := lt_of_lt_of_eq h (show cfg0.N = 16 from N_0)
    by_cases h0 : (n + 1) % 8 = 0
    · have h1 : ¬(n + 1) % 8 = 7 := by omega
      rw [outsAt0_A m c ⟨n + 1, h⟩ h0 h1]
      dsimp only
      rw [scratch_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩)]
      unfold acc; rw [if_pos h0]; rfl
    · by_cases h1 : (n + 1) % 8 = 7
      · rw [outsAt0_C m c ⟨n + 1, h⟩ h0 h1]
        dsimp only
        rw [scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩)]
        show k0_pay1 _ (outsAt0 m c n _).2 = _
        rw [scratch_eq c n]
        conv_rhs => unfold acc
        rw [if_neg h0]; rfl
      · rw [outsAt0_B m c ⟨n + 1, h⟩ h0 h1]
        dsimp only
        rw [scratch_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩)]
        show k0_pay1 _ (outsAt0 m c n _).2 = _
        rw [scratch_eq c n]
        conv_rhs => unfold acc
        rw [if_neg h0]; rfl

/-- At the last point of a run the output block is the accumulator laid along the lanes. -/
theorem out_eq (c : Dev nD) (t : Fin cfg0.N) (h1 : t.val % 8 = 7) :
    (outsAt0 m c t.val t.isLt).1 = k0_pay2 (acc m c t.val t.isLt) := by
  have h0 : ¬t.val % 8 = 0 := by omega
  have ht : 0 < t.val := by omega
  obtain ⟨n, hn⟩ := t
  cases n with
  | zero => exact absurd ht (lt_irrefl _)
  | succ n =>
    rw [outsAt0_C m c ⟨n + 1, hn⟩ h0 h1]
    dsimp only
    rw [out_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) _ _ (iblk m c 0 ⟨n + 1, hn⟩) (iblk m c 1 ⟨n + 1, hn⟩) (iblk m c 2 ⟨n + 1, hn⟩) (iblk m c 3 ⟨n + 1, hn⟩)]
    show k0_pay2 (k0_pay1 _ (outsAt0 m c n _).2) = _
    rw [scratch_eq m c n]
    conv_rhs => unfold acc
    rw [if_neg h0]; rfl

end Cert.KernelIdeal.Accum

end
-- ==== Proof.KFinal.lean ====
/-
  The output array after the run.

  Output block `t / 8` of the [2, 1, 128] array is written back once, at the last point `t` of run `t / 8`, and holds the
  accumulator after that point on every lane. The two blocks tile the array, so entry (a, 0, l) of the array after the run
  is the accumulator after point `8 a + 7`.
-/
import proofs.«409414_j79328045957202_3_alg».proof.Proof.KAccum
import Idealize.ShloMosaic.Lib.ValueIdx
import Idealize.ShloMosaic.Lib.Pipeline.Value

noncomputable section

namespace Cert.KernelIdeal.Accum

open Idealize.ShloMosaic Idealize.ShloMosaic.TcCoe Idealize.SL.Sem Cert.KernelIdeal Cert.KernelIdeal.Gen Cert.KernelIdeal.Pieces
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- A [1, 1] vector has one index. -/
theorem idx11_eq (i : S1x1.Idx) : i = ix2 0 0 := by
  funext a; apply Fin.ext
  match a with
  | ⟨0, _⟩ => have h : (i 0).val < 1 := (i 0).isLt; show (i 0).val = 0; omega
  | ⟨1, _⟩ => have h : (i 1).val < 1 := (i 1).isLt; show (i 1).val = 0; omega

/-- The accumulator laid along the lanes reads the accumulator's one entry everywhere. -/
theorem lanes_apply (v : Vec F S1x1 .f32) (y : S1x1x128.Idx) : k0_pay2 v y = v (ix2 0 0) := by
  unfold k0_pay2
  simp only [shapeCast, broadcastTo]
  exact congrArg v (idx11_eq _)

/-- The accumulator does not depend on how its point's bound is proved, nor on how the point is written. -/
theorem acc_congr (c : Dev nD) {n n' : ℕ} (e : n = n') (h : n < cfg0.N) (h' : n' < cfg0.N) : acc m c n h = acc m c n' h' := by
  subst e; rfl

/-- The last point of run `a`. -/
def runEnd (a : Fin 2) : Fin cfg0.N := ⟨8 * a.val + 7, by have := a.isLt; rw [show cfg0.N = 16 from N_0]; omega⟩

/-- The output array after the run: entry (a, 0, l) is the accumulator after the last point of run `a`. -/
def outArr (c : Dev nD) : Buf (Elt F) ((c.tc : Thread nD τ).loc main_v7) :=
  fun j => acc m c (runEnd ⟨(j 0).val, (j 0).isLt⟩).val (runEnd ⟨(j 0).val, (j 0).isLt⟩).isLt (ix2 0 0)

/-- The output window's printed index map, decided over the grid: block `t / 8` on the first axis, block 0 on the others. -/
theorem out_index : ∀ t : Fin cfg0.N, win0_4.index t (0 : Fin 3) = t.val / 8 ∧ win0_4.index t (1 : Fin 3) = 0 ∧ win0_4.index t (2 : Fin 3) = 0 :=
  (by decide +kernel : ∀ t : Fin grid0.N, win0_4.index t (0 : Fin 3) = t.val / 8 ∧ win0_4.index t (1 : Fin 3) = 0 ∧ win0_4.index t (2 : Fin 3) = 0)

/-- What a flushing point writes back is its block of `outArr`. -/
theorem flushed_eq (c : Dev nD) (t : Fin cfg0.N) (hf : (cfg0.win 4).flush t = true) :
    (dats m 0 c).flushed 4 t = ((cfg0.win 4).blk t).view.read (Elt F) (outArr m c) := by
  have h7 := (flush0_4 t).mp hf
  have hN : t.val < 16 := lt_of_lt_of_eq t.isLt (show cfg0.N = 16 from N_0)
  obtain ⟨e0, e1, e2⟩ := out_index t
  show (cfg0.win 4).cut (grid0.coords t) ((dats m 0 c).after 4 t) = _
  rw [after0_4, out_eq m c t h7]
  funext y
  show k0_pay2 (acc m c t.val t.isLt) y = outArr m c (((cfg0.win 4).blk t).view.emb y)
  rw [lanes_apply]
  unfold outArr
  refine congrFun (acc_congr m c ?_ _ _) _
  have hy : (y 0).val < 1 := (y 0).isLt
  show t.val = 8 * (win0_4.index t (0 : Fin 3) * 1 + 1 * (y 0).val) + 7
  omega

/-- An index of the array is in point `t`'s block iff each coordinate is in the block's range on its axis. -/
theorem mem_blk (t : Fin cfg0.N) (i : S2x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v7).slice (win0_4.rect t)).set ↔ _
  rw [View.set_slice_whole, Rect.mem_set_unit]
  exact Iff.rfl

/-- The array after the run is `outArr`: the two flushed blocks tile it. -/
theorem final (c : Dev nD) : (dats m 0 c).arrAt 4 cfg0.N = outArr m c :=
  (dats m 0 c).arrAt_eq_of_cover 4 (outArr m c) (flushed_eq m c) fun i => by
    have hi0 : (i 0).val < 2 := (i 0).isLt
    have hi1 : (i 1).val < 1 := (i 1).isLt
    have hi2 : (i 2).val < 128 := (i 2).isLt
    refine ⟨runEnd ⟨(i 0).val, hi0⟩, (flush0_4 _).mpr (by show (8 * (i 0).val + 7) % 8 = 7; omega), ?_⟩
    rw [mem_blk]
    obtain ⟨e0, e1, e2⟩ := out_index (runEnd ⟨(i 0).val, hi0⟩)
    have e0' : win0_4.index (runEnd ⟨(i 0).val, hi0⟩) (0 : Fin 3) = (i 0).val := by
      rw [e0]; show (8 * (i 0).val + 7) / 8 = (i 0).val; omega
    intro a
    match a with
    | ⟨0, _⟩ => show win0_4.index (runEnd ⟨(i 0).val, hi0⟩) (0 : Fin 3) * 1 ≤ (i 0).val ∧ (i 0).val < win0_4.index (runEnd ⟨(i 0).val, hi0⟩) (0 : Fin 3) * 1 + 1; omega
    | ⟨1, _⟩ => show win0_4.index (runEnd ⟨(i 0).val, hi0⟩) (1 : Fin 3) * 1 ≤ (i 1).val ∧ (i 1).val < win0_4.index (runEnd ⟨(i 0).val, hi0⟩) (1 : Fin 3) * 1 + 1; omega
    | ⟨2, _⟩ => show win0_4.index (runEnd ⟨(i 0).val, hi0⟩) (2 : Fin 3) * 128 ≤ (i 2).val ∧ (i 2).val < win0_4.index (runEnd ⟨(i 0).val, hi0⟩) (2 : Fin 3) * 128 + 128; omega

end Cert.KernelIdeal.Accum

end
-- ==== Proof.KRun.lean ====
/-
  The kernel program's run, read as values.

  After the region the host takes lane 0 of each of the two output blocks, adds the two numbers to zero and divides by
  16384. So the program's result is that tail applied to the output array `outArr`, whose entry (a, 0, 0) is the
  accumulator after the last point of run `a`; the three argument arrays end as they were.
-/
import proofs.«409414_j79328045957202_3_alg».proof.Proof.KFinal
import Idealize.ShloMosaic.Lib.StableHlo.Run

noncomputable section

namespace Cert.KernelIdeal.Accum

open Idealize.ShloMosaic Idealize.ShloMosaic.TcCoe Idealize.SL.Sem Cert.KernelIdeal Cert.KernelIdeal.Gen Cert.KernelIdeal.Pieces
open Idealize.ShloMosaic.Pipeline (Dat)
open Idealize.ShloMosaic.StableHlo

variable {F : FTy → Type} [FloatOps F]
variable (m : (ℓ : Loc nD τ sig) → Buf (Elt F) ℓ) (ρ : Dev nD → PrngReg)

/-- The host operations after the region, as one function of the output array: lane 0 of each block, summed from zero,
    divided by 16384. -/
def tail (A : (⟨S2x1x128, .f32⟩ : BufTy).Contents (Elt F)) : (⟨S_, .f32⟩ : BufTy).Contents (Elt F) :=
  Host.divf
    (Host.reduceAdd (shapeCast S2 (extractStridedSlice S2x1x1 ![0, 0, 0] A slices_S2x1x128_S2x1x1_0_0_0) shapeCasts_S2x1x1_S2)
      (constant S_ .f32 0x00000000#32) reducesTo_S2_S_d0 h_S_)
    (constant S_ .f32 0x46800000#32)

/-- What the result buffer holds after the lines after the region. -/
theorem result_eq (c : Dev nD) :
    Pipeline.afterTail₀ cfgs (dats m) 0 (V0 m) [hostOps1] c main_v11 = tail (outArr m c) := by
  unfold Pipeline.afterTail₀
  show StableHlo.after hostOps1 _ (Proc.devRef .tc main_v11) = _
  after_results
  rw [show Pipeline.withArrays spec0 c (V0 m c) (fun w => (dats m 0 c).arrAt w cfg0.N) (Proc.devRef .tc main_v7) = outArr m c from
    (Pipeline.withArrays_arr spec0 launch0.win.arr_inj c _ _ 4).trans (final m c)]
  rfl

/-- The run: the result at the tail of the output array, the arguments unchanged. -/
theorem run : θ_run defs (onTc (τ := τ) (main (F := F))) ⟨m, fun _ => 0, ρ⟩ fun r => ∀ c : Dev nD,
      r.2.mem ((c.tc : Thread nD τ).loc main_v11) = tail (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Accum

end
-- ==== Proof.Spec.lean ====
/-
  The loss both programs compute, as one function of the argument arrays.

  For a feature row `f`, a prototype row `g` and the prototype's squared norm `n2`, the logit is the negated Euclidean
  distance, `-(√(max ((‖f‖² + n2) - 2·⟨f, g⟩) 0))`; a row's loss is the logarithm of the sum over the 1024 prototypes of the
  exponentials of its logits, minus the logit of the row's own label; the result is the sum of the 16384 rows' losses
  divided by 16384. The label of row `r` is the word `D r` read as a column of the logits.
-/
import Idealize.ShloMosaic.PureOps.Ideal
import Idealize.ShloMosaic.Lib.ValueIdx

noncomputable section

namespace Cert.Loss

open Idealize.ShloMosaic Idealize.ShloMosaic.ValueIdx

/-- The constant 2 of `2·⟨f, g⟩`, as the extended real its pattern denotes. -/
def two : EReal := Ideal.ofBits .f32 0x40000000#32

/-- The divisor 16384, as the extended real its pattern denotes. -/
def count : EReal := Ideal.ofBits .f32 0x46800000#32

/-- The logit of a feature row `f` against a prototype row `g` whose squared norm is `n2`. -/
def simOf (f g : Fin 512 → EReal) (n2 : EReal) : EReal :=
  0 - Ideal.sqrt (max (((∑ k : Fin 512, f k * f k) + n2) - two * (∑ k : Fin 512, f k * g k)) 0)

/-- One row's loss: log-sum-exp of its logits minus the logit at its label `d`. -/
def lossOf (f : Fin 512 → EReal) (G : Fin 1024 → Fin 512 → EReal) (N2 : Fin 1024 → EReal) (d : Fin 1024) : EReal :=
  Ideal.log (∑ p : Fin 1024, Ideal.exp (simOf f (G p) (N2 p))) - simOf f (G d) (N2 d)

/-- The label of row `r` as a column of the logits. -/
def col (D : (⟨1, ![16384]⟩ : Shape).Idx → BitVec 32) (r : Fin 16384) : Fin 1024 :=
  ⟨(D (ix1 r)).toNat % 1024, Nat.mod_lt _ (by norm_num)⟩

/-- The squared norm of prototype `p`. -/
def norm2 (Y : (⟨2, ![1024, 512]⟩ : Shape).Idx → EReal) (p : Fin 1024) : EReal :=
  ∑ k : Fin 512, Y (ix2 p k) * Y (ix2 p k)

/-- Row `r`'s loss, from the whole arrays. -/
def rowLoss (X : (⟨2, ![16384, 512]⟩ : Shape).Idx → EReal) (Y : (⟨2, ![1024, 512]⟩ : Shape).Idx → EReal)
    (D : (⟨1, ![16384]⟩ : Shape).Idx → BitVec 32) (r : Fin 16384) : EReal :=
  lossOf (fun k => X (ix2 r k)) (fun p k => Y (ix2 p k)) (norm2 Y) (col D r)

/-- The mean loss. -/
def loss (X : (⟨2, ![16384, 512]⟩ : Shape).Idx → EReal) (Y : (⟨2, ![1024, 512]⟩ : Shape).Idx → EReal)
    (D : (⟨1, ![16384]⟩ : Shape).Idx → BitVec 32) : EReal :=
  Ideal.div (∑ r : Fin 16384, rowLoss X Y D r) count

end Cert.Loss

end
-- ==== Proof.KBlocks.lean ====
/-
  The kernel's input blocks as entries of the argument arrays.

  At point `t` the feature window holds rows `1024 t … 1024 t + 1023` of the features, and the label window the clipped
  labels of the same rows; the other two windows hold whole arrays the host computed before the region: the prototypes
  transposed (a change of float format is the identity on the extended reals), and the prototypes' squared norms as a
  row. A label already in [0, 1024) is its own clip.
-/
import proofs.«409414_j79328045957202_3_alg».proof.Proof.Gen.KernelIdeal.Frame
import proofs.«409414_j79328045957202_3_alg».proof.Proof.Spec
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.StableHlo.Predicate

noncomputable section

namespace Cert.KernelIdeal.Blocks

open Idealize.ShloMosaic Idealize.ShloMosaic.TcCoe Idealize.SL.Sem Cert.KernelIdeal Cert.KernelIdeal.Gen
open Idealize.ShloMosaic.ValueIdx Idealize.ShloMosaic.StableHlo

variable (m : (ℓ : Loc nD τ sig) → Buf (Elt Ideal) ℓ)

/-- The features, the prototypes and the labels as the program is launched with them. -/
abbrev feat (c : Dev nD) : S16384x512.Idx → EReal := m ((c.tc : Thread nD τ).loc main_arg0)
abbrev proto (c : Dev nD) : S1024x512.Idx → EReal := m ((c.tc : Thread nD τ).loc main_arg1)
abbrev label (c : Dev nD) : S16384.Idx → BitVec 32 := m ((c.tc : Thread nD τ).loc main_arg2)

/-- Row `q` of the block at point `t` is row `1024 t + q` of the array. -/
def row (t : Fin cfg0.N) (q : Fin 1024) : Fin 16384 :=
  ⟨1024 * t.val + q.val, by
    have hN : t.val < 16 := lt_of_lt_of_eq t.isLt (show cfg0.N = 16 from N_0)
    have := q.isLt; omega⟩

/-- The input windows' printed index maps, decided over the grid. -/
theorem in_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The transposed prototypes, as the region finds them. -/
theorem V_protoT (c : Dev nD) : (V m c main_v1 : S512x1024.Idx → EReal)
    = truncf (F := Ideal) .bf16 (transpose S512x1024 [1, 0] (proto m c) transposes_S1024x512_S512x1024_1_0) bitsLt_bf16_f32 := by
  dsimp only [V, V0]
  simp only [hostOps0, hostOps0_1, hostOps0_2, List.flatten_cons, List.flatten_nil, List.append_nil, List.cons_append,
    List.nil_append]
  after_results
  try rfl

/-- The squared norms as a row, as the region finds them. -/
theorem V_norms (c : Dev nD) : (V m c main_v4 : S1x1024.Idx → EReal)
    = broadcastInDim S1x1024 ![1] bcast_S1024_S1x1024_1
        (Host.reduceAdd (mulf (proto m c) (proto m c)) (constant (F := Ideal) S_ .f32 0x00000000#32) reducesTo_S1024x512_S1024_d1 h_S_) := by
  dsimp only [V, V0]
  simp only [hostOps0, hostOps0_1, hostOps0_2, List.flatten_cons, List.flatten_nil, List.append_nil, List.cons_append,
    List.nil_append]
  after_results
  try rfl

/-- The clipped labels as a column, as the region finds them. -/
theorem V_labels (c : Dev nD) : (V m c main_v6 : S16384x1.Idx → BitVec 32)
    = broadcastInDim S16384x1 ![0] bcast_S16384_S16384x1_0
        (minsi (broadcastInDim S16384 ![] bcast_S_S16384 (constantI S_ 32 1023#32))
          (maxsi (broadcastInDim S16384 ![] bcast_S_S16384 (constantI S_ 32 0#32)) (label m c))) := by
  dsimp only [V, V0]
  simp only [hostOps0, hostOps0_1, hostOps0_2, List.flatten_cons, List.flatten_nil, List.append_nil, List.cons_append,
    List.nil_append]
  after_results
  try rfl

/-- A word already in [0, 1024) is its own clip to [0, 1023]. -/
theorem clip_id (w : BitVec 32) (hw : w.toNat < 1024) : IntOp.minsi 1023#32 (IntOp.maxsi 0#32 w) = w := by
  have hti : w.toInt = w.toNat := StableHlo.Predicate.toInt_eq_toNat_of_lt (by omega)
  have h0 : (0#32 : BitVec 32).toInt = 0 := by decide
  have h1 : (1023#32 : BitVec 32).toInt = 1023 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, h1, decide_eq_true_eq]; omega

/-- The feature block at point `t`: its row `q` is row `1024 t + q` of the features. -/
theorem feat_blk (c : Dev nD) (t : Fin cfg0.N) (q : Fin 1024) (k : Fin 512) :
    (iblk m c 0 t : Vec Ideal S1024x512 .f32) (ix2 q k) = feat m c (ix2 (row t q) k) := by
  obtain ⟨e0, e1, -⟩ := in_index t
  unfold iblk
  rw [View.read_apply]
  show V m c main_arg0 _ = m (c.tc.loc main_arg0) _
  refine (congrFun (V_main_arg0 m c) _).trans (congrArg (m (c.tc.loc main_arg0)) ?_)
  funext a; apply Fin.ext
  match a with
  | ⟨0, _⟩ => show win0_0.index t (0 : Fin 2) * 1024 + 1 * q.val = 1024 * t.val + q.val; omega
  | ⟨1, _⟩ => show win0_0.index t (1 : Fin 2) * 512 + 1 * k.val = k.val; omega

/-- The transposed-prototype block: entry (k, p) is prototype `p`'s coordinate `k`. -/
theorem protoT_blk (c : Dev nD) (t : Fin cfg0.N) (k : Fin 512) (p : Fin 1024) :
    (iblk m c 1 t : Vec Ideal S512x1024 .bf16) (ix2 k p) = proto m c (ix2 p k) := by
  obtain ⟨-, -, e0, e1, -⟩ := in_index t
  unfold iblk
  rw [View.read_apply]
  show V m c main_v1 _ = _
  refine (congrFun (V_protoT m c) _).trans ?_
  show transpose S512x1024 [1, 0] (proto m c) transposes_S1024x512_S512x1024_1_0 _ = _
  refine transpose_apply [1, 0] (proto m c) transposes_S1024x512_S512x1024_1_0 _ (ix2 p k) (fun b => ?_)
  match b with
  | ⟨0, _⟩ => show k.val = win0_1.index t (0 : Fin 2) * 512 + 1 * k.val; omega
  | ⟨1, _⟩ => show p.val = win0_1.index t (1 : Fin 2) * 1024 + 1 * p.val; omega

/-- The squared-norm block: entry (0, p) is prototype `p`'s squared norm. -/
theorem norms_blk (c : Dev nD) (t : Fin cfg0.N) (p : Fin 1024) :
    (iblk m c 2 t : Vec Ideal S1x1024 .f32) (ix2 0 p) = Cert.Loss.norm2 (proto m c) p := by
  obtain ⟨-, -, -, -, e0, e1, -⟩ := in_index t
  unfold iblk
  rw [View.read_apply]
  show V m c main_v4 _ = _
  refine (congrFun (V_norms m c) _).trans ?_
  rw [broadcastInDim_apply _ bcast_S1024_S1x1024_1 _ _ (ix1 p) (fun a => match a with
    | ⟨0, _⟩ => by
      show p.val = if (1024 : Nat) = 1 then 0 else win0_2.index t (1 : Fin 2) * 1024 + 1 * p.val
      rw [if_neg (by decide)]; omega)]
  simp only [Host.reduceAdd, Ideal.hostReduceAdd_def]
  rw [Ideal.hostReduceAdd_single reducesTo_S1024x512_S1024_d1 (by decide)]
  show Ideal.ofBits .f32 0x00000000#32 + _ = _
  rw [Ideal.ofBits_zero_f32, zero_add]
  unfold Cert.Loss.norm2
  refine Finset.sum_congr rfl fun k _ => ?_
  show proto m c _ * proto m c _ = _
  have hk : ∀ x : S1024x512.Idx, (x 0).val = p.val → (x 1).val = k.val → x = ix2 p k := fun x h0 h1 =>
    funext fun a => Fin.ext (by match a with | ⟨0, _⟩ => exact h0 | ⟨1, _⟩ => exact h1)
  exact congrArg₂ (· * ·) (congrArg (proto m c) (hk _ rfl rfl)) (congrArg (proto m c) (hk _ rfl rfl))

/-- The label block at point `t`: row `q` holds the label of row `1024 t + q`, when that label is in [0, 1024). -/
theorem label_blk (c : Dev nD) (t : Fin cfg0.N) (q : Fin 1024) (hD : (label m c (ix1 (row t q))).toNat < 1024) :
    (iblk m c 3 t : Vec Ideal S1024x1 .i32) (ix2 q 0) = label m c (ix1 (row t q)) := by
  obtain ⟨-, -, -, -, -, -, e0, e1⟩ := in_index t
  unfold iblk
  rw [View.read_apply]
  show V m c main_v6 _ = _
  refine (congrFun (V_labels m c) _).trans ?_
  rw [broadcastInDim_apply _ bcast_S16384_S16384x1_0 _ _ (ix1 (row t q)) (fun a => match a with
    | ⟨0, _⟩ => by
      show (row t q).val = if (16384 : Nat) = 1 then 0 else win0_3.index t (0 : Fin 2) * 1024 + 1 * q.val
      rw [if_neg (by decide)]; show 1024 * t.val + q.val = _; omega)]
  show IntOp.minsi 1023#32 (IntOp.maxsi 0#32 (label m c (ix1 (row t q)))) = _
  exact clip_id _ hD

end Cert.KernelIdeal.Blocks

end
-- ==== Proof.PayRow.lean ====
/-
  The kernel body's per-row value at an index: row `q` of the block's result is the row's loss `lossOf` of the feature
  block's row `q`, the transposed prototype block's columns, the squared-norm row, at the label the (clipped) label
  block holds for the row, when that label is below 1024.
-/
import proofs.«409414_j79328045957202_3_alg».proof.Proof.Spec
import proofs.«409414_j79328045957202_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayRow

open Idealize.ShloMosaic Idealize.ShloMosaic.ValueIdx Cert.KernelIdeal Cert.KernelIdeal.Gen

/-- A sum over the 512 lanes of row `q`. -/
theorem lane512 (v : FVec Ideal S1024x512 .f32) (hφ : FKind.Formats .f32)
    (hacc : (0x00000000#32 : BitVec 32) = 0x00000000#32) (q : Fin 1024) :
    multiReduction .add [1] S1024 v 0x00000000#32 reduces_S1024x512_S1024 hφ hacc (ix1 q)
      = ∑ k : Fin 512, v (ix2 q k) := by
  refine (Ideal.multiReduction_add_single v 0x00000000#32 reduces_S1024x512_S1024 hφ hacc (ix1 q)).trans ?_
  refine Finset.sum_congr rfl fun k _ => congrArg v ?_
  funext a
  match a with
  | ⟨0, _⟩ => rfl
  | ⟨1, _⟩ => rfl

/-- A sum over the 1024 lanes of row `q`. -/
theorem lane1024 (v : FVec Ideal S1024x1024 .f32) (hφ : FKind.Formats .f32)
    (hacc : (0x00000000#32 : BitVec 32) = 0x00000000#32) (q : Fin 1024) :
    multiReduction .add [1] S1024 v 0x00000000#32 reduces_S1024x1024_S1024 hφ hacc (ix1 q)
      = ∑ p : Fin 1024, v (ix2 q p) := by
  refine (Ideal.multiReduction_add_single v 0x00000000#32 reduces_S1024x1024_S1024 hφ hacc (ix1 q)).trans ?_
  refine Finset.sum_congr rfl fun k _ => congrArg v ?_
  funext a
  match a with
  | ⟨0, _⟩ => rfl
  | ⟨1, _⟩ => rfl

variable {α : Type}

/-- A vector of length 1024 viewed as a column reads, at row `q`, its entry `q`. -/
theorem col_cast (v : S1024.Idx → α) (q : Fin 1024) (c : Fin 1) :
    shapeCast S1024x1 v shapeCasts_S1024_S1024x1 (ix2 q c) = v (ix1 q) :=
  shapeCast_apply v shapeCasts_S1024_S1024x1 _ _ (by
    have hc : c.val = 0 := by omega
    rw [Shape.rowMajor_val_two, Shape.rowMajor_val_one]
    show q.val = q.val * 1 + c.val
    rw [hc, Nat.mul_one, Nat.add_zero])

/-- A column spread over 1024 lanes reads, at `(q, p)`, the column's entry `q`. -/
theorem col_bcast (v : S1024x1.Idx → α) (q p : Fin 1024) :
    broadcastTo S1024x1024 v broadcasts_S1024x1_S1024x1024 (ix2 q p) = v (ix2 q (0 : Fin 1)) := by
  refine broadcastTo_apply v broadcasts_S1024x1_S1024x1024 (ix2 q p) (ix2 q (0 : Fin 1)) fun ax => ?_
  match ax with
  | ⟨0, _⟩ =>
    show q.val = if (1024 : Nat) = 1 then 0 else q.val
    rw [if_neg (by decide)]
  | ⟨1, _⟩ =>
    show 0 = if (1 : Nat) = 1 then 0 else p.val
    rw [if_pos rfl]

/-- A row spread over 1024 rows reads, at `(q, p)`, the row's entry `p`. -/
theorem row_bcast (v : S1x1024.Idx → α) (q p : Fin 1024) :
    broadcastTo S1024x1024 v broadcasts_S1x1024_S1024x1024 (ix2 q p) = v (ix2 (0 : Fin 1) p) :=
  broadcastTo_1b_ab_apply v broadcasts_S1x1024_S1024x1024 q p

/-- The lane counter reads, at `(q, p)`, the word of `p`. -/
theorem lane_iota (q p : Fin 1024) :
    iota .tc S1024x1024 32 [1] iota_S1024x1024_d1_w32 (ix2 q p) = BitVec.ofNat 32 p.val :=
  iota_single_apply .tc S1024x1024 32 1 iota_S1024x1024_d1_w32 (ix2 q p)

/-- The product's operand indices, axis by axis: at result index `i` and contraction index `c` the left operand is read
    at `(i 0, c)` and the right operand at `(c, i 1)`. -/
theorem lhs_mm_0 (i : S1024x1024.Idx) (c : dot_S1024x512_S512x1024_S1024x1024_1_0_0_1_n_n.contr.Idx) :
    (dot_S1024x512_S512x1024_S1024x1024_1_0_0_1_n_n.lhsIdx i c 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_mm_1 (i : S1024x1024.Idx) (c : dot_S1024x512_S512x1024_S1024x1024_1_0_0_1_n_n.contr.Idx) :
    (dot_S1024x512_S512x1024_S1024x1024_1_0_0_1_n_n.lhsIdx i c 1).val = (c ⟨0, by decide⟩).val :=
  dot_S1024x512_S512x1024_S1024x1024_1_0_0_1_n_n.lhsIdx_val_of_single rfl i c
theorem rhs_mm_0 (i : S1024x1024.Idx) (c : dot_S1024x512_S512x1024_S1024x1024_1_0_0_1_n_n.contr.Idx) :
    (dot_S1024x512_S512x1024_S1024x1024_1_0_0_1_n_n.rhsIdx i c 0).val = (c ⟨0, by decide⟩).val :=
  dot_S1024x512_S512x1024_S1024x1024_1_0_0_1_n_n.rhsIdx_val_of_single rfl i c
theorem rhs_mm_1 (i : S1024x1024.Idx) (c : dot_S1024x512_S512x1024_S1024x1024_1_0_0_1_n_n.contr.Idx) :
    (dot_S1024x512_S512x1024_S1024x1024_1_0_0_1_n_n.rhsIdx i c 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product into a zero accumulator reads, at `(q, p)`, the sum over `k` of the left operand's `(q, k)` times the
    right operand's `(k, p)`. -/
theorem mm_apply (a : FVec Ideal S1024x512 .bf16) (b : FVec Ideal S512x1024 .bf16) (q p : Fin 1024) :
    matmul dot_S1024x512_S512x1024_S1024x1024_1_0_0_1_n_n none a b (constant S1024x1024 .f32 0x00000000#32) (ix2 q p)
      = ∑ k : Fin 512, a (ix2 q k) * b (ix2 k p) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 q p) ((ValueIdx.contrEquiv1 dot_S1024x512_S512x1024_S1024x1024_1_0_0_1_n_n 512 rfl rfl).symm k) = ix2 q k := funext fun ax => Fin.ext (by
    match ax with
    | ⟨0, _⟩ => exact lhs_mm_0 _ _
    | ⟨1, _⟩ => exact (lhs_mm_1 _ _).trans hk)
  have er : dot_S1024x512_S512x1024_S1024x1024_1_0_0_1_n_n.rhsIdx (ix2 q p) ((ValueIdx.contrEquiv1 dot_S1024x512_S512x1024_S1024x1024_1_0_0_1_n_n 512 rfl rfl).symm k) = ix2 k p := funext fun ax => Fin.ext (by
    match ax with
    | ⟨0, _⟩ => exact (rhs_mm_0 _ _).trans hk
    | ⟨1, _⟩ => exact rhs_mm_1 _ _)
  rw [el, er]

/-- The comparison for equality gives the bit 1 exactly on equal words. -/
theorem cmpi_eq_one_iff (a b : BitVec 32) : IntOp.cmpi .eq a b = 1#1 ↔ a = b := by
  have hb : ∀ c : Bool, BitVec.ofBool c = 1#1 ↔ c = true := by decide
  unfold IntOp.cmpi
  exact (hb _).trans beq_iff_eq

/-- The word of a lane below 1024 is `w` exactly when the lane is `w`'s value. -/
theorem ofNat_eq_iff (p : Fin 1024) (w : BitVec 32) (hw : w.toNat < 1024) :
    BitVec.ofNat 32 p.val = w ↔ p = ⟨w.toNat, hw⟩ := by
  constructor
  · intro h
    apply Fin.ext
    show p.val = w.toNat
    rw [← h, BitVec.toNat_ofNat]
    have := p.isLt
    omega
  · intro h
    subst h
    apply BitVec.eq_of_toNat_eq
    rw [BitVec.toNat_ofNat]
    exact Nat.mod_eq_of_lt w.isLt

/-- A sum over the lanes that keeps only the lane whose word is `w` is the term at that lane. -/
theorem masked_sum (s : Fin 1024 → EReal) (w : BitVec 32) (hw : w.toNat < 1024) :
    (∑ p : Fin 1024, Scalar.select (IntOp.cmpi .eq (BitVec.ofNat 32 p.val) w) (s p) (0 : EReal)) = s ⟨w.toNat, hw⟩ := by
  rw [Finset.sum_eq_single (⟨w.toNat, hw⟩ : Fin 1024)]
  · rw [(cmpi_eq_one_iff _ _).2 ((ofNat_eq_iff _ w hw).2 rfl)]
    exact select_one _ _
  · intro p _ hp
    have h0 : IntOp.cmpi .eq (BitVec.ofNat 32 p.val) w = 0#1 :=
      eq_zero_of_ne_one fun h => hp ((ofNat_eq_iff p w hw).1 ((cmpi_eq_one_iff _ _).1 h))
    rw [h0]
    exact select_zero _ _
  · intro h
    exact absurd (Finset.mem_univ _) h

/-! A square root, an exponential, a logarithm and an integer comparison of vectors, read at an index. -/

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem cmpi_apply {s : Shape} {w : Nat} (c : CmpIPredicate) (a b : IVec s w) (i : s.Idx) :
    cmpi c a b i = IntOp.cmpi c (a i) (b i) := rfl

/-- The squared norms of the block's rows, as a column. -/
def sqnorm (x0 : Vec Ideal S1024x512 .f32) : FVec Ideal S1024x1 .f32 :=
  shapeCast S1024x1 (multiReduction .add [1] S1024 (mulf x0 x0) 0x00000000#32 reduces_S1024x512_S1024 (.inl rfl) rfl)
    shapeCasts_S1024_S1024x1

/-- The inner products of the block's rows with the prototype block's columns. -/
def rowDots (x0 : Vec Ideal S1024x512 .f32) (x1 : Vec Ideal S512x1024 .bf16) : FVec Ideal S1024x1024 .f32 :=
  matmul dot_S1024x512_S512x1024_S1024x1024_1_0_0_1_n_n none (truncf .bf16 x0 bitsLt_bf16_f32)
    (shapeCast S512x1024 x1 shapeCasts_S512x1024_S512x1024 : FVec Ideal S512x1024 .bf16)
    (constant S1024x1024 .f32 0x00000000#32)

/-- The block's logits: at `(q, p)` the negated root of `(‖row q‖² + n2 p) - 2·⟨row q, column p⟩` clipped at 0. -/
def logits (x0 : Vec Ideal S1024x512 .f32) (x1 : Vec Ideal S512x1024 .bf16) (x2 : Vec Ideal S1x1024 .f32) :
    FVec Ideal S1024x1024 .f32 :=
  subf (broadcast S1024x1024 (Scalar.ofBits .f32 0x00000000#32))
    (sqrt (maximumf
      (subf
        (addf (broadcastTo S1024x1024 (sqnorm x0) broadcasts_S1024x1_S1024x1024)
          (broadcastTo S1024x1024 (shapeCast S1x1024 x2 shapeCasts_S1x1024_S1x1024) broadcasts_S1x1024_S1024x1024))
        (mulf (broadcast S1024x1024 (Scalar.ofBits .f32 0x40000000#32)) (rowDots x0 x1)))
      (broadcast S1024x1024 (Scalar.ofBits .f32 0x00000000#32))))

/-- The body's per-row term is the log-sum-exp of the logits' rows minus the rows' sums masked to the label's lane. -/
theorem pay4_eq (x0 : Vec Ideal S1024x512 .f32) (x1 : Vec Ideal S512x1024 .bf16) (x2 : Vec Ideal S1x1024 .f32)
    (x3 : Vec Ideal S1024x1 .i32) :
    k0_pay4 (F := Ideal) x0 x1 x2 x3
      = subf
          (log (shapeCast S1024x1
            (multiReduction .add [1] S1024 (exp (logits x0 x1 x2)) 0x00000000#32 reduces_S1024x1024_S1024 (.inl rfl) rfl)
            shapeCasts_S1024_S1024x1))
          (shapeCast S1024x1
            (multiReduction .add [1] S1024
              (select
                (cmpi .eq (iota .tc S1024x1024 32 [1] iota_S1024x1024_d1_w32)
                  (broadcastTo S1024x1024 (shapeCast S1024x1 x3 shapeCasts_S1024x1_S1024x1) broadcasts_S1024x1_S1024x1024))
                (logits x0 x1 x2) (broadcast S1024x1024 (Scalar.ofBits .f32 0x00000000#32)))
              0x00000000#32 reduces_S1024x1024_S1024 (.inl rfl) rfl)
            shapeCasts_S1024_S1024x1) := rfl

/-- The logit at `(q, p)` is the specification's logit of row `q` against column `p` and its squared norm. -/
theorem logits_at (x0 : Vec Ideal S1024x512 .f32) (x1 : Vec Ideal S512x1024 .bf16) (x2 : Vec Ideal S1x1024 .f32)
    (q p : Fin 1024) :
    logits x0 x1 x2 (ix2 q p)
      = Cert.Loss.simOf (fun k => x0 (ix2 q k)) (fun k => x1 (ix2 k p)) (x2 (ix2 0 p)) := by
  unfold logits Cert.Loss.simOf Cert.Loss.two sqnorm rowDots
  rw [subf_apply, broadcast_apply, sqrt_apply, maximumf_apply, subf_apply, addf_apply, col_bcast, col_cast, lane512,
    row_bcast, shapeCast_self, mulf_apply, broadcast_apply, mm_apply, broadcast_apply, shapeCast_self]
  simp only [mulf_apply, truncf_apply, Ideal.ofBits_def, Ideal.ofBits_zero_f32]

/-- Row `q` of the body's per-row term. -/
theorem pay4_row (x0 : Vec Ideal S1024x512 .f32) (x1 : Vec Ideal S512x1024 .bf16) (x2 : Vec Ideal S1x1024 .f32)
    (x3 : Vec Ideal S1024x1 .i32) (q : Fin 1024) (hq : (x3 (ix2 q 0)).toNat < 1024) :
    k0_pay4 (F := Ideal) x0 x1 x2 x3 (ix2 q 0)
      = Cert.Loss.lossOf (fun k => x0 (ix2 q k)) (fun p k => x1 (ix2 k p)) (fun p => x2 (ix2 0 p)) ⟨(x3 (ix2 q 0)).toNat, hq⟩ := by
  rw [pay4_eq]
  unfold Cert.Loss.lossOf
  rw [subf_apply, log_apply, col_cast, col_cast, lane1024, lane1024]
  refine congrArg₂ (fun a b : EReal => a - b) (congrArg Ideal.log (Finset.sum_congr rfl fun p _ => ?_)) ?_
  · rw [exp_apply, logits_at]
  · refine (Finset.sum_congr rfl fun p _ => ?_).trans
      ((masked_sum (fun p => logits x0 x1 x2 (ix2 q p)) (x3 (ix2 q 0)) hq).trans (logits_at x0 x1 x2 q _))
    rw [select_apply, cmpi_apply, lane_iota, col_bcast, shapeCast_self, broadcast_apply]
    rw [Ideal.ofBits_def, Ideal.ofBits_zero_f32]

end Cert.KernelIdeal.PayRow

end
-- ==== Proof.SumMath.lean ====
/-
  Sums regrouped.

  An accumulator that restarts at every eighth point and otherwise adds the point's term holds, after point `8 a + i`
  (`i < 8`), the sum of the terms of points `8 a … 8 a + i`; two runs of eight points together are the sixteen points;
  and a sum over 16384 rows is the sum over sixteen blocks of the sum over each block's 1024 rows. All of it in any
  commutative additive monoid: only the order and grouping of a finite sum change.
-/
import Mathlib.Algebra.BigOperators.Fin
import Mathlib.Algebra.BigOperators.Intervals
import Mathlib.Logic.Equiv.Fin.Basic

namespace Cert.Loss

open Finset

variable {M : Type} [AddCommMonoid M]

/-- The restarting accumulator's closed form inside a run. -/
theorem run_sum (A S : ℕ → M) (h0 : ∀ n, n % 8 = 0 → A n = 0 + S n) (hs : ∀ n, (n + 1) % 8 ≠ 0 → A (n + 1) = A n + S (n + 1))
    (a : ℕ) : ∀ i, i < 8 → A (8 * a + i) = ∑ j ∈ range (i + 1), S (8 * a + j)
  | 0, _ => by rw [h0 (8 * a + 0) (by omega), zero_add, sum_range_one]
  | i + 1, hi => by
    rw [show 8 * a + (i + 1) = (8 * a + i) + 1 from rfl, hs (8 * a + i) (by omega), run_sum A S h0 hs a i (by omega),
      sum_range_succ _ (i + 1)]
    rfl

/-- Two runs of eight are the sixteen points. -/
theorem two_runs (S : ℕ → M) : (∑ j ∈ range 8, S (8 * 0 + j)) + (∑ j ∈ range 8, S (8 * 1 + j)) = ∑ t ∈ range 16, S t := by
  simp only [sum_range_succ, sum_range_zero, zero_add, Nat.mul_zero, Nat.mul_one, Nat.reduceAdd, add_assoc]

/-- A sum over 16 · 1024 rows, block by block. -/
theorem sum_blocks (f : Fin (16 * 1024) → M) :
    ∑ r : Fin (16 * 1024), f r = ∑ t : Fin 16, ∑ q : Fin 1024, f (finProdFinEquiv (t, q)) := by
  rw [← Fintype.sum_prod_type' (fun t q => f (finProdFinEquiv (t, q)))]
  exact (Fintype.sum_equiv finProdFinEquiv _ _ (fun _ => rfl)).symm

end Cert.Loss
-- ==== Proof.KValue.lean ====
/-
  The kernel program's result is the mean loss.

  With every label in [0, 1024): the rows of the block at point `t` are the losses of rows `1024 t … 1024 t + 1023`; the
  accumulator after the last point of a run is the sum of its eight blocks' sums; the host adds the two runs' sums to zero
  and divides by 16384. Regrouped, that is the sum of the 16384 rows' losses divided by 16384. Only the order and grouping
  of finite sums of extended reals change, so nothing here needs the inputs to be finite.
-/
import proofs.«409414_j79328045957202_3_alg».proof.Proof.KRun
import proofs.«409414_j79328045957202_3_alg».proof.Proof.KBlocks
import proofs.«409414_j79328045957202_3_alg».proof.Proof.PayRow
import proofs.«409414_j79328045957202_3_alg».proof.Proof.SumMath
import Idealize.ShloMosaic.Lib.ValueIdxRank1

noncomputable section

namespace Cert.KernelIdeal.KValue

open Idealize.ShloMosaic Idealize.ShloMosaic.TcCoe Idealize.SL.Sem Cert.KernelIdeal Cert.KernelIdeal.Gen
open Cert.KernelIdeal.Accum Cert.KernelIdeal.Blocks
open Idealize.ShloMosaic.ValueIdx

variable (m : (ℓ : Loc nD τ sig) → Buf (Elt Ideal) ℓ)

/-- The rows of the block at point `t` are the losses of the array's rows `1024 t + q`. -/
theorem rows_apply (c : Dev nD) (hD : ∀ i, (label m c i).toNat < 1024) (t : Fin cfg0.N) (q : Fin 1024) :
    rows m c t (ix2 q 0) = Cert.Loss.rowLoss (feat m c) (proto m c) (label m c) (row t q) := by
  have hl := label_blk m c t q (hD _)
  have hq : ((iblk m c 3 t : Vec Ideal S1024x1 .i32) (ix2 q 0)).toNat < 1024 := by rw [hl]; exact hD _
  have key : ∀ (f f' : Fin 512 → EReal) (G G' : Fin 1024 → Fin 512 → EReal) (N N' : Fin 1024 → EReal) (d d' : Fin 1024),
      f = f' → G = G' → N = N' → d = d' → Cert.Loss.lossOf f G N d = Cert.Loss.lossOf f' G' N' d' := by
    intro _ _ _ _ _ _ _ _ h1 h2 h3 h4; rw [h1, h2, h3, h4]
  unfold rows
  refine (Cert.KernelIdeal.PayRow.pay4_row (iblk m c 0 t) (iblk m c 1 t) (iblk m c 2 t) (iblk m c 3 t) q hq).trans ?_
  unfold Cert.Loss.rowLoss
  refine key _ _ _ _ _ _ _ _ (funext fun k => feat_blk m c t q k) (funext fun p => funext fun k => protoT_blk m c t k p)
    (funext fun p => norms_blk m c t p) (Fin.ext ?_)
  show ((iblk m c 3 t : Vec Ideal S1024x1 .i32) (ix2 q 0)).toNat = (label m c (ix1 (row t q))).toNat % 1024
  rw [hl, Nat.mod_eq_of_lt (hD _)]

/-- The zero the accumulator restarts from. -/
theorem pay3_apply : k0_pay3 (F := Ideal) (ix2 0 0) = 0 := by
  unfold k0_pay3
  simp only [shapeCast_self]
  show Ideal.ofBits .f32 0x00000000#32 = 0
  exact Ideal.ofBits_zero_f32

/-- A sum down the one column of a [1024, 1] vector. -/
theorem col_sum (v : FVec Ideal S1024x1 .f32) (hφ : FKind.Formats .f32) (hacc : (0x00000000#32 : BitVec 32) = 0x00000000#32) :
    multiReduction .add [0] S1 v 0x00000000#32 reduces_S1024x1_S1 hφ hacc (ix1 0) = ∑ q : Fin 1024, v (ix2 q 0) := by
  refine (Ideal.multiReduction_add_single v 0x00000000#32 reduces_S1024x1_S1 hφ hacc (ix1 0)).trans ?_
  refine Finset.sum_congr rfl fun k _ => congrArg v ?_
  funext a
  match a with
  | ⟨0, _⟩ => rfl
  | ⟨1, _⟩ => rfl

/-- The accumulator's update: the old value plus the sum of the block's rows. -/
theorem pay1_apply (v : FVec Ideal S1024x1 .f32) (s : Vec Ideal S1x1 .f32) :
    k0_pay1 (F := Ideal) v s (ix2 0 0) = s (ix2 0 0) + ∑ q : Fin 1024, v (ix2 q 0) := by
  unfold k0_pay1
  simp only [shapeCast_self]
  show s (ix2 0 0) + shapeCast S1x1 (multiReduction .add [0] S1 v 0x00000000#32 reduces_S1024x1_S1 (.inl rfl) rfl) shapeCasts_S1_S1x1 (ix2 0 0) = _
  rw [shapeCast_apply _ shapeCasts_S1_S1x1 (ix2 0 0) (ix1 0) rfl]
  exact congrArg (s (ix2 0 0) + ·) (col_sum v _ _)

/-- The host's tail: the two blocks' lane 0, added, divided by 16384. -/
theorem tail_apply (A : (⟨S2x1x128, .f32⟩ : BufTy).Contents (Elt Ideal)) (i : S_.Idx) :
    tail (F := Ideal) A i = Ideal.div (A (ix3 0 0 0) + A (ix3 1 0 0)) Cert.Loss.count := by
  unfold tail
  show Ideal.div _ (Ideal.ofBits .f32 0x46800000#32) = _
  simp only [Host.reduceAdd, Ideal.hostReduceAdd_def]
  rw [Ideal.hostReduceAdd_total reducesTo_S2_S_d0 (fun b => b.elim0), ← Equiv.sum_comp idxEquiv1.symm, Fin.sum_univ_two]
  show Ideal.div (Ideal.ofBits .f32 0x00000000#32 + (shapeCast S2 _ shapeCasts_S2x1x1_S2 (ix1 0) + shapeCast S2 _ shapeCasts_S2x1x1_S2 (ix1 1))) _ = _
  rw [Ideal.ofBits_zero_f32, zero_add, shapeCast_apply _ shapeCasts_S2x1x1_S2 (ix1 0) (ix3 0 0 0) rfl,
    shapeCast_apply _ shapeCasts_S2x1x1_S2 (ix1 1) (ix3 1 0 0) rfl,
    extractStridedSlice_apply _ A slices_S2x1x128_S2x1x1_0_0_0 (ix3 0 0 0) (ix3 0 0 0) (fun a => by fin_cases a <;> rfl),
    extractStridedSlice_apply _ A slices_S2x1x128_S2x1x1_0_0_0 (ix3 1 0 0) (ix3 1 0 0) (fun a => by fin_cases a <;> rfl)]
  rfl

/-- The sum of the rows of the block at point `n` (zero past the grid). -/
def ptSum (c : Dev nD) (n : ℕ) : EReal := if h : n < cfg0.N then ∑ q : Fin 1024, rows m c ⟨n, h⟩ (ix2 q 0) else 0

/-- The accumulator's one entry after point `n` (zero past the grid). -/
def accAt (c : Dev nD) (n : ℕ) : EReal := if h : n < cfg0.N then acc m c n h (ix2 0 0) else 0

/-- At the first point of a run the accumulator is zero plus the point's sum. -/
theorem accAt_first (c : Dev nD) (n : ℕ) (hn : n % 8 = 0) : accAt m c n = 0 + ptSum m c n := by
  unfold accAt ptSum
  by_cases h : n < cfg0.N
  · rw [dif_pos h, dif_pos h]
    cases n with
    | zero =>
      show k0_pay1 (F := Ideal) (rows m c ⟨0, h⟩) (k0_pay3 (F := Ideal)) (ix2 0 0) = _
      rw [pay1_apply, pay3_apply]
    | succ n =>
      have e : acc m c (n + 1) h = k0_pay1 (rows m c ⟨n + 1, h⟩) (k0_pay3 (F := Ideal)) := by
        conv_lhs => unfold acc
        rw [if_pos hn]
      rw [e, pay1_apply, pay3_apply]
  · rw [dif_neg h, dif_neg h, add_zero]

/-- At the other points it is the accumulator before plus the point's sum. -/
theorem accAt_next (c : Dev nD) (n : ℕ) (hn : (n + 1) % 8 ≠ 0) : accAt m c (n + 1) = accAt m c n + ptSum m c (n + 1) := by
  have hN : cfg0.N = 16 := N_0
  unfold accAt ptSum
  by_cases h : n + 1 < cfg0.N
  · have h' : n < cfg0.N := Nat.lt_of_succ_lt h
    rw [dif_pos h, dif_pos h, dif_pos h']
    have e : acc m c (n + 1) h = k0_pay1 (rows m c ⟨n + 1, h⟩) (acc m c n h') := by
      conv_lhs => unfold acc
      rw [if_neg hn]
    rw [e, pay1_apply]
  · have h' : ¬n < cfg0.N := by omega
    rw [dif_neg h, dif_neg h, dif_neg h', add_zero]

/-- The output array's lane-0 entries are the accumulator after the runs' last points. -/
theorem outArr_apply (c : Dev nD) (a : Fin 2) : outArr m c (ix3 a 0 0) = accAt m c (8 * a.val + 7) := by
  have hN : cfg0.N = 16 := N_0
  have ha : 8 * a.val + 7 < cfg0.N := by have := a.isLt; omega
  unfold outArr accAt
  rw [dif_pos ha]
  exact congrFun (acc_congr m c rfl _ _) _

/-- THE RESULT: with every label in [0, 1024), the host's tail of the output array is the mean loss. -/
theorem result_value (c : Dev nD) (hD : ∀ i, (label m c i).toNat < 1024) :
    tail (F := Ideal) (outArr m c) = fun _ => Cert.Loss.loss (feat m c) (proto m c) (label m c) := by
  funext i
  rw [tail_apply, outArr_apply m c 0, outArr_apply m c 1]
  unfold Cert.Loss.loss
  refine congrArg (Ideal.div · Cert.Loss.count) ?_
  have r0 : accAt m c (8 * 0 + 7) = ∑ j ∈ Finset.range 8, ptSum m c (8 * 0 + j) :=
    Cert.Loss.run_sum (accAt m c) (ptSum m c) (accAt_first m c) (accAt_next m c) 0 7 (by omega)
  have r1 : accAt m c (8 * 1 + 7) = ∑ j ∈ Finset.range 8, ptSum m c (8 * 1 + j) :=
    Cert.Loss.run_sum (accAt m c) (ptSum m c) (accAt_first m c) (accAt_next m c) 1 7 (by omega)
  show accAt m c (8 * 0 + 7) + accAt m c (8 * 1 + 7) = _
  rw [r0, r1, Cert.Loss.two_runs, ← Fin.sum_univ_eq_sum_range (ptSum m c) 16]
  show _ = ∑ r : Fin (16 * 1024), Cert.Loss.rowLoss (feat m c) (proto m c) (label m c) r
  rw [Cert.Loss.sum_blocks]
  refine Finset.sum_congr rfl fun t _ => ?_
  have ht : t.val < cfg0.N := lt_of_lt_of_eq t.isLt (show (16 : ℕ) = cfg0.N from N_0.symm)
  unfold ptSum
  rw [dif_pos ht]
  refine Finset.sum_congr rfl fun q _ => ?_
  rw [rows_apply m c hD ⟨t.val, ht⟩ q]
  refine congrArg (Cert.Loss.rowLoss (feat m c) (proto m c) (label m c)) (Fin.ext ?_)
  show 1024 * t.val + q.val = q.val + 1024 * t.val
  omega

end Cert.KernelIdeal.KValue

end
-- ==== Proof.RefStages.lean ====
/-
  The reference's result buffer after its 66 operations, from any contents, is the last stage `val_main_v24` of the
  three argument buffers: read off the fold of the operations' results stretch by stretch.
-/
import proofs.«409414_j79328045957202_3_alg».proof.Proof.RefRun
import proofs.«409414_j79328045957202_3_alg».proof.Proof.RefRead
import Idealize.ShloMosaic.Lib.Pipeline.Frame

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The operations in five stretches

The list is cut where one buffer carries everything the later operations read of the earlier ones: the negated
distances `main_v17`, their row-wise log-softmax `main_v18`, the labels as gather indices `main_call1_v5`, the entry
taken from each row `main_v20`. -/

/-- Operations 1–22: the negated distances, into `main_v17`. -/
abbrev opsA : List (HloOp τ sig (Elt F)) :=
  [ binary main_arg0 main_arg0 main_v0 (mulf : (⟨S16384x512, .f32⟩ : BufTy).Contents (Elt F) → (⟨S16384x512, .f32⟩ : BufTy).Contents (Elt F) → (⟨S16384x512, .f32⟩ : BufTy).Contents (Elt F)),
    nullary main_cst (constant S_ .f32 0x00000000#32),
    binary main_v0 main_cst main_v1 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v1 main_v2 (broadcastInDim S16384x1 ![0] bcast_S16384_S16384x1_0 : (⟨S16384, .f32⟩ : BufTy).Contents (Elt F) → (⟨S16384x1, .f32⟩ : BufTy).Contents (Elt F)),
    binary main_arg1 main_arg1 main_v3 (mulf : (⟨S1024x512, .f32⟩ : BufTy).Contents (Elt F) → (⟨S1024x512, .f32⟩ : BufTy).Contents (Elt F) → (⟨S1024x512, .f32⟩ : BufTy).Contents (Elt F)),
    nullary main_cst_0 (constant S_ .f32 0x00000000#32),
    binary main_v3 main_cst_0 main_v4 ((fun x v => Host.reduceAdd x v reducesTo_S1024x512_S1024_d1 h_S_) : (⟨S1024x512, .f32⟩ : BufTy).Contents (Elt F) → (⟨S_, .f32⟩ : BufTy).Contents (Elt F) → (⟨S1024, .f32⟩ : BufTy).Contents (Elt F)),
    unary main_v4 main_v5 (broadcastInDim S1x1024 ![1] bcast_S1024_S1x1024_1 : (⟨S1024, .f32⟩ : BufTy).Contents (Elt F) → (⟨S1x1024, .f32⟩ : BufTy).Contents (Elt F)),
    unary main_arg1 main_v6 ((transpose S512x1024 [1, 0] · transposes_S1024x512_S512x1024_1_0) : (⟨S1024x512, .f32⟩ : BufTy).Contents (Elt F) → (⟨S512x1024, .f32⟩ : BufTy).Contents (Elt F)),
    binary main_arg0 main_v6 main_v7 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    unary main_v2 main_v8 (broadcastInDim S16384x1024 ![0, 1] bcast_S16384x1_S16384x1024_0_1 : (⟨S16384x1, .f32⟩ : BufTy).Contents (Elt F) → (⟨S16384x1024, .f32⟩ : BufTy).Contents (Elt F)),
    unary main_v5 main_v9 (broadcastInDim S16384x1024 ![0, 1] bcast_S1x1024_S16384x1024_0_1 : (⟨S1x1024, .f32⟩ : BufTy).Contents (Elt F) → (⟨S16384x1024, .f32⟩ : BufTy).Contents (Elt F)),
    binary main_v8 main_v9 main_v10 (addf : (⟨S16384x1024, .f32⟩ : BufTy).Contents (Elt F) → (⟨S16384x1024, .f32⟩ : BufTy).Contents (Elt F) → (⟨S16384x1024, .f32⟩ : BufTy).Contents (Elt F)),
    nullary main_cst_1 (constant S_ .f32 0x40000000#32),
    unary main_cst_1 main_v11 (broadcastInDim S16384x1024 ![] bcast_S_S16384x1024 : (⟨S_, .f32⟩ : BufTy).Contents (Elt F) → (⟨S16384x1024, .f32⟩ : BufTy).Contents (Elt F)),
    binary main_v11 main_v7 main_v12 (mulf : (⟨S16384x1024, .f32⟩ : BufTy).Contents (Elt F) → (⟨S16384x1024, .f32⟩ : BufTy).Contents (Elt F) → (⟨S16384x1024, .f32⟩ : BufTy).Contents (Elt F)),
    binary main_v10 main_v12 main_v13 (subf : (⟨S16384x1024, .f32⟩ : BufTy).Contents (Elt F) → (⟨S16384x1024, .f32⟩ : BufTy).Contents (Elt F) → (⟨S16384x1024, .f32⟩ : BufTy).Contents (Elt F)),
    nullary main_cst_2 (constant S_ .f32 0x00000000#32),
    unary main_cst_2 main_v14 (broadcastInDim S16384x1024 ![] bcast_S_S16384x1024 : (⟨S_, .f32⟩ : BufTy).Contents (Elt F) → (⟨S16384x1024, .f32⟩ : BufTy).Contents (Elt F)),
    binary main_v13 main_v14 main_v15 (maximumf : (⟨S16384x1024, .f32⟩ : BufTy).Contents (Elt F) → (⟨S16384x1024, .f32⟩ : BufTy).Contents (Elt F) → (⟨S16384x1024, .f32⟩ : BufTy).Contents (Elt F)),
    unary main_v15 main_v16 (Host.sqrt : (⟨S16384x1024, .f32⟩ : BufTy).Contents (Elt F) → (⟨S16384x1024, .f32⟩ : BufTy).Contents (Elt F)),
    unary main_v16 main_v17 (Host.negf : (⟨S16384x1024, .f32⟩ : BufTy).Contents (Elt F) → (⟨S16384x1024, .f32⟩ : BufTy).Contents (Elt F)) ]

/-- Operations 23–37: the row-wise log-softmax of `main_v17`, into `main_v18`. -/
abbrev opsB : List (HloOp τ sig (Elt F)) :=
  [ TRef.nullary (TRef.of (T := ⟨S_, .f32⟩) main_call0_cst) (constant S_ .f32 0xFF800000#32),
    TRef.binary (TRef.of (T := ⟨S16384x1024, .f32⟩) main_v17) (TRef.of (T := ⟨S_, .f32⟩) main_call0_cst) (TRef.of (T := ⟨S16384, .f32⟩) main_call0_v0) (fun x v => Host.reduce FloatOps.maximumf x v reducesTo_S16384x1024_S16384_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16384, .f32⟩) main_call0_v1) (broadcastInDim S16384 ![] bcast_S_S16384),
    TRef.binary (TRef.of (T := ⟨S16384, .f32⟩) main_call0_v1) (TRef.of (T := ⟨S16384, .f32⟩) main_call0_v0) (TRef.of (T := ⟨S16384, .f32⟩) main_call0_v2) maximumf,
    TRef.unary (TRef.of (T := ⟨S16384, .f32⟩) main_call0_v2) (TRef.of (T := ⟨S16384x1, .f32⟩) main_call0_v3) (broadcastInDim S16384x1 ![0] bcast_S16384_S16384x1_0),
    TRef.unary (TRef.of (T := ⟨S16384x1, .f32⟩) main_call0_v3) (TRef.of (T := ⟨S16384x1024, .f32⟩) main_call0_v4) (broadcastInDim S16384x1024 ![0, 1] bcast_S16384x1_S16384x1024_0_1),
    TRef.binary (TRef.of (T := ⟨S16384x1024, .f32⟩) main_v17) (TRef.of (T := ⟨S16384x1024, .f32⟩) main_call0_v4) (TRef.of (T := ⟨S16384x1024, .f32⟩) main_call0_v5) subf,
    TRef.unary (TRef.of (T := ⟨S16384x1024, .f32⟩) main_call0_v5) (TRef.of (T := ⟨S16384x1024, .f32⟩) main_call0_v6) Host.exp,
    TRef.nullary (TRef.of (T := ⟨S_, .f32⟩) main_call0_cst_1) (constant S_ .f32 0x00000000#32),
    TRef.binary (TRef.of (T := ⟨S16384x1024, .f32⟩) main_call0_v6) (TRef.of (T := ⟨S_, .f32⟩) main_call0_cst_1) (TRef.of (T := ⟨S16384, .f32⟩) main_call0_v7) (fun x v => Host.reduceAdd x v reducesTo_S16384x1024_S16384_d1 h_S_),
    TRef.unary (TRef.of (T := ⟨S16384, .f32⟩) main_call0_v7) (TRef.of (T := ⟨S16384x1, .f32⟩) main_call0_v8) (broadcastInDim S16384x1 ![0] bcast_S16384_S16384x1_0),
    TRef.unary (TRef.of (T := ⟨S16384x1, .f32⟩) main_call0_v8) (TRef.of (T := ⟨S16384x1, .f32⟩) main_call0_v9) Host.log,
    TRef.unary (TRef.of (T := ⟨S16384x1, .f32⟩) main_call0_v9) (TRef.of (T := ⟨S16384x1024, .f32⟩) main_call0_v10) (broadcastInDim S16384x1024 ![0, 1] bcast_S16384x1_S16384x1024_0_1),
    TRef.binary (TRef.of (T := ⟨S16384x1024, .f32⟩) main_call0_v5) (TRef.of (T := ⟨S16384x1024, .f32⟩) main_call0_v10) (TRef.of (T := ⟨S16384x1024, .f32⟩) main_v18) subf ]

/-- Operations 38–46: the labels `main_arg2`, a negative one moved up by 1024, as gather indices, into `main_call1_v5`. -/
abbrev opsC : List (HloOp τ sig (Elt F)) :=
  [ unary main_arg2 main_v19 (broadcastInDim S16384x1 ![0] bcast_S16384_S16384x1_0 : (⟨S16384, .i32⟩ : BufTy).Contents (Elt F) → (⟨S16384x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16384x1, .i32⟩) main_call1_v0) (broadcastInDim S16384x1 ![] bcast_S_S16384x1),
    TRef.binary (TRef.of (T := ⟨S16384x1, .i32⟩) main_v19) (TRef.of (T := ⟨S16384x1, .i32⟩) main_call1_v0) (TRef.of (T := ⟨S16384x1, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S16384x1, .i32⟩) main_call1_v2) (broadcastInDim S16384x1 ![] bcast_S_S16384x1),
    TRef.binary (TRef.of (T := ⟨S16384x1, .i32⟩) main_v19) (TRef.of (T := ⟨S16384x1, .i32⟩) main_call1_v2) (TRef.of (T := ⟨S16384x1, .i32⟩) main_call1_v3) addi,
    TRef.ternary (TRef.of (T := ⟨S16384x1, .i1⟩) main_call1_v1) (TRef.of (T := ⟨S16384x1, .i32⟩) main_call1_v3) (TRef.of (T := ⟨S16384x1, .i32⟩) main_v19) (TRef.of (T := ⟨S16384x1, .i32⟩) main_call1_v4) select,
    TRef.reshape (TRef.of (T := ⟨S16384x1, .i32⟩) main_call1_v4) (TRef.of (T := ⟨S16384x1x1, .i32⟩) main_call1_v5) rfl shapeCasts_S16384x1_S16384x1x1 ]

/-- Operations 47–60: from each row of `main_v18` the entry its index in `main_call1_v5` names, into `main_v20`. -/
abbrev opsD : List (HloOp τ sig (Elt F)) :=
  [ TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S16384x1x1, .i32⟩) main_call1_v6) (broadcastInDim S16384x1x1 ![] bcast_S_S16384x1x1),
    TRef.binary (TRef.of (T := ⟨S16384x1x1, .i32⟩) main_call1_v5) (TRef.of (T := ⟨S16384x1x1, .i32⟩) main_call1_v6) (TRef.of (T := ⟨S16384x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16384x1x1, .i32⟩) main_call1_v9) (broadcastInDim S16384x1x1 ![0, 1, 2] bcast_S1x1x1_S16384x1x1_0_1_2),
    TRef.binary (TRef.of (T := ⟨S16384x1x1, .i32⟩) main_call1_v5) (TRef.of (T := ⟨S16384x1x1, .i32⟩) main_call1_v9) (TRef.of (T := ⟨S16384x1x1, .i1⟩) main_call1_v10) (cmpi .sle),
    TRef.binary (TRef.of (T := ⟨S16384x1x1, .i1⟩) main_call1_v7) (TRef.of (T := ⟨S16384x1x1, .i1⟩) main_call1_v10) (TRef.of (T := ⟨S16384x1x1, .i1⟩) main_call1_v11) andi,
    TRef.nullary (TRef.of (T := ⟨S_, .i1⟩) main_call1_c_3) (constantI S_ 1 1#1),
    TRef.binary (TRef.of (T := ⟨S16384x1x1, .i1⟩) main_call1_v11) (TRef.of (T := ⟨S_, .i1⟩) main_call1_c_3) (TRef.of (T := ⟨S16384x1, .i1⟩) main_call1_v12) (fun x v => Host.reduce IntOp.andi x v reducesTo_S16384x1x1_S16384x1_d2 h_S_),
    TRef.binary (TRef.of (T := ⟨S16384x1024, .f32⟩) main_v18) (TRef.of (T := ⟨S16384x1x1, .i32⟩) main_call1_v5) (TRef.of (T := ⟨S16384x1, .f32⟩) main_call1_v13) (fun x i => Host.gather gather_S16384x1024_S16384x1x1_S16384x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S16384x1, .f32⟩) main_call1_v14) (broadcastInDim S16384x1 ![] bcast_S_S16384x1),
    TRef.ternary (TRef.of (T := ⟨S16384x1, .i1⟩) main_call1_v12) (TRef.of (T := ⟨S16384x1, .f32⟩) main_call1_v13) (TRef.of (T := ⟨S16384x1, .f32⟩) main_call1_v14) (TRef.of (T := ⟨S16384x1, .f32⟩) main_v20) select ]

/-- Operations 61–66: minus the mean of `main_v20`, into `main_v24`. -/
abbrev opsE : List (HloOp τ sig (Elt F)) :=
  [ reshape main_v20 main_v21 rfl shapeCasts_S16384x1_S16384,
    unary main_v21 main_v22 (Host.negf : (⟨S16384, .f32⟩ : BufTy).Contents (Elt F) → (⟨S16384, .f32⟩ : BufTy).Contents (Elt F)),
    nullary main_cst_3 (constant S_ .f32 0x00000000#32),
    binary main_v22 main_cst_3 main_v23 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_4 (constant S_ .f32 0x46800000#32),
    binary main_v23 main_cst_4 main_v24 (Host.divf : (⟨S_, .f32⟩ : BufTy).Contents (Elt F) → (⟨S_, .f32⟩ : BufTy).Contents (Elt F) → (⟨S_, .f32⟩ : BufTy).Contents (Elt F)) ]

set_option maxRecDepth 8192 in
/-- The five stretches in a row are the whole list. -/
theorem ops_split : (ops : List (HloOp τ sig (Elt F))) = opsA ++ (opsB ++ (opsC ++ (opsD ++ opsE))) := rfl

/-! ## The stages between the cuts, each as a function of what its stretch reads -/

/-- Each row's maximum, taken over −∞. -/
def rowMax (s : (⟨S16384x1024, .f32⟩ : BufTy).Contents (Elt F)) : (⟨S16384, .f32⟩ : BufTy).Contents (Elt F) :=
  maximumf (val_main_call0_v1 (F := F))
    (Host.reduce FloatOps.maximumf s (val_main_call0_cst (F := F)) reducesTo_S16384x1024_S16384_d1 h_S_)

/-- Each entry less its row's maximum. -/
def shifted (s : (⟨S16384x1024, .f32⟩ : BufTy).Contents (Elt F)) : (⟨S16384x1024, .f32⟩ : BufTy).Contents (Elt F) :=
  subf s (broadcastInDim S16384x1024 ![0, 1] bcast_S16384x1_S16384x1024_0_1
    (broadcastInDim S16384x1 ![0] bcast_S16384_S16384x1_0 (rowMax s)))

/-- The logarithm of each row's sum of exponentials, as a column. -/
def logSumExp (d : (⟨S16384x1024, .f32⟩ : BufTy).Contents (Elt F)) : (⟨S16384x1, .f32⟩ : BufTy).Contents (Elt F) :=
  Host.log (broadcastInDim S16384x1 ![0] bcast_S16384_S16384x1_0
    (Host.reduceAdd (Host.exp d) (val_main_call0_cst_1 (F := F)) reducesTo_S16384x1024_S16384_d1 h_S_))

/-- The row-wise log-softmax: the shifted entries less the logarithm of their row's sum of exponentials. -/
def logSoftmax (s : (⟨S16384x1024, .f32⟩ : BufTy).Contents (Elt F)) : (⟨S16384x1024, .f32⟩ : BufTy).Contents (Elt F) :=
  subf (shifted s) (broadcastInDim S16384x1024 ![0, 1] bcast_S16384x1_S16384x1024_0_1 (logSumExp (shifted s)))

/-- From each row of `l` the entry its index names, where the index is in [0, 1023], and the fill value elsewhere. -/
def takeAt (l : (⟨S16384x1024, .f32⟩ : BufTy).Contents (Elt F)) (ix : (⟨S16384x1x1, .i32⟩ : BufTy).Contents (Elt F)) : (⟨S16384x1, .f32⟩ : BufTy).Contents (Elt F) :=
  select
    (Host.reduce IntOp.andi
      (andi (cmpi .sge ix (val_main_call1_v6 (F := F))) (cmpi .sle ix (val_main_call1_v9 (F := F))))
      (val_main_call1_c_3 (F := F)) reducesTo_S16384x1x1_S16384x1_d2 h_S_)
    (Host.gather gather_S16384x1024_S16384x1x1_S16384x1_n_1_0_0_1_2_11 l ix)
    (val_main_call1_v14 (F := F))

/-- The column as a vector. -/
def flat (t : (⟨S16384x1, .f32⟩ : BufTy).Contents (Elt F)) : (⟨S16384, .f32⟩ : BufTy).Contents (Elt F) :=
  shapeCast _ t shapeCasts_S16384x1_S16384

/-- Minus the entries, summed and divided by their number. -/
def meanNeg (t : (⟨S16384x1, .f32⟩ : BufTy).Contents (Elt F)) : (⟨S_, .f32⟩ : BufTy).Contents (Elt F) :=
  Host.divf (Host.reduceAdd (Host.negf (flat t)) (val_main_cst_3 (F := F)) reducesTo_S16384_S_d0 h_S_) (val_main_cst_4 (F := F))

/-- The log-softmax stage is `logSoftmax` of the negated distances. -/
theorem val_main_v18_eq (x0 : (⟨S16384x512, .f32⟩ : BufTy).Contents (Elt F)) (x1 : (⟨S1024x512, .f32⟩ : BufTy).Contents (Elt F)) :
    val_main_v18 (F := F) x0 x1 = logSoftmax (val_main_v17 (F := F) x0 x1) := rfl

/-- The taken entries are `takeAt` of the log-softmax stage and the index stage. -/
theorem val_main_v20_eq (x0 : (⟨S16384x512, .f32⟩ : BufTy).Contents (Elt F)) (x1 : (⟨S1024x512, .f32⟩ : BufTy).Contents (Elt F)) (x2 : (⟨S16384, .i32⟩ : BufTy).Contents (Elt F)) :
    val_main_v20 (F := F) x0 x1 x2 = takeAt (val_main_v18 (F := F) x0 x1) (val_main_call1_v5 (F := F) x2) := rfl

/-- The last stage is `meanNeg` of the taken entries. -/
theorem val_main_v24_eq (x0 : (⟨S16384x512, .f32⟩ : BufTy).Contents (Elt F)) (x1 : (⟨S1024x512, .f32⟩ : BufTy).Contents (Elt F)) (x2 : (⟨S16384, .i32⟩ : BufTy).Contents (Elt F)) :
    val_main_v24 (F := F) x0 x1 x2 = meanNeg (val_main_v20 (F := F) x0 x1 x2) := rfl

/-! ## Typed references

A called function's operations move each operand from its buffer's own type to the value's type and each result back;
the two moves in a row, at one buffer, cancel. -/

/-- Contents moved to a buffer's own type and back are unchanged. -/
theorem ofBuf_toBuf {Val : EltTy → Type} {T : BufTy} (x : TRef sig T) (v : T.Contents Val) : x.ofBuf (x.toBuf v) = v := by
  unfold TRef.ofBuf TRef.toBuf
  rw [cast_cast, cast_eq]

/-- At `main_v20` the move to the buffer's own type changes nothing. -/
theorem toBuf_v20 (w : (⟨S16384x1, .f32⟩ : BufTy).Contents (Elt F)) :
    (TRef.of (T := ⟨S16384x1, .f32⟩) main_v20 : TRef sig _).toBuf w = w := rfl

/-! ## Each stretch, from any contents -/

variable (W : Valuation τ sig (Elt F))

/-- The first stretch leaves the negated distances of the two float arguments in `main_v17`. -/
theorem afterA_v17 :
    after (opsA (F := F)) W (Proc.devRef .tc main_v17)
      = val_main_v17 (F := F) (W (Proc.devRef .tc main_arg0)) (W (Proc.devRef .tc main_arg1)) := by
  after_results_simp <;> rfl
/-- The first stretch does not write the labels. -/
theorem afterA_arg2 : after (opsA (F := F)) W (Proc.devRef .tc main_arg2) = W (Proc.devRef .tc main_arg2) := by
  after_results_simp

/-- The second stretch leaves the log-softmax of what `main_v17` held in `main_v18`. -/
theorem afterB_v18 :
    after (opsB (F := F)) W (Proc.devRef .tc main_v18) = logSoftmax (W (Proc.devRef .tc main_v17)) := by
  after_results_simp
  simp only [ofBuf_toBuf]
  rfl
/-- The second stretch does not write the labels. -/
theorem afterB_arg2 : after (opsB (F := F)) W (Proc.devRef .tc main_arg2) = W (Proc.devRef .tc main_arg2) := by
  after_results_simp

/-- The third stretch leaves the index stage of the labels in `main_call1_v5`. -/
theorem afterC_v5 :
    after (opsC (F := F)) W (Proc.devRef .tc main_call1_v5) = val_main_call1_v5 (F := F) (W (Proc.devRef .tc main_arg2)) := by
  after_results_simp
  simp only [ofBuf_toBuf]
  rfl
/-- The third stretch does not write the log-softmax. -/
theorem afterC_v18 : after (opsC (F := F)) W (Proc.devRef .tc main_v18) = W (Proc.devRef .tc main_v18) := by
  after_results_simp

/-- The fourth stretch leaves in `main_v20` the entries taken from what `main_v18` held, at the indices `main_call1_v5` held. -/
theorem afterD_v20 :
    after (opsD (F := F)) W (Proc.devRef .tc main_v20)
      = takeAt (W (Proc.devRef .tc main_v18)) (W (Proc.devRef .tc main_call1_v5)) := by
  after_results_simp
  simp only [ofBuf_toBuf]
  refine (toBuf_v20 _).trans ?_
  rfl

/-- The last stretch leaves in `main_v24` minus the mean of what `main_v20` held. -/
theorem afterE_v24 :
    after (opsE (F := F)) W (Proc.devRef .tc main_v24) = meanNeg (W (Proc.devRef .tc main_v20)) := by
  after_results_simp <;> rfl

/-! ## The whole list -/

/-- After all the operations the result buffer holds the last stage of the arguments. -/
theorem after_ops_v24 (V : Valuation τ sig (Elt F)) :
    after (ops (F := F)) V (Proc.devRef .tc main_v24)
      = val_main_v24 (F := F) (V (Proc.devRef .tc main_arg0)) (V (Proc.devRef .tc main_arg1)) (V (Proc.devRef .tc main_arg2)) := by
  rw [ops_split, after_append, after_append, after_append, after_append, afterE_v24, afterD_v20, afterC_v5, afterC_v18,
    afterB_v18, afterB_arg2, afterA_v17, afterA_arg2, val_main_v24_eq, val_main_v20_eq, val_main_v18_eq]

/-- No operation writes an argument buffer. -/
theorem after_ops_arg0 (V : Valuation τ sig (Elt F)) : after (ops (F := F)) V (Proc.devRef .tc main_arg0) = V (Proc.devRef .tc main_arg0) := by
  after_results_simp
theorem after_ops_arg1 (V : Valuation τ sig (Elt F)) : after (ops (F := F)) V (Proc.devRef .tc main_arg1) = V (Proc.devRef .tc main_arg1) := by
  after_results_simp
theorem after_ops_arg2 (V : Valuation τ sig (Elt F)) : after (ops (F := F)) V (Proc.devRef .tc main_arg2) = V (Proc.devRef .tc main_arg2) := by
  after_results_simp

end Cert.ReferenceIdeal.Stages

end
-- ==== Proof.RowMath.lean ====
/-
  The mathematics of one row, over the reals.

  When every entry of a feature row and of the prototypes is a real number, every logit is a real number `σ p`, the sum of
  the exponentials is a positive real, and for ANY real shift `μ`
      log (∑ₚ exp (σ p)) - σ d  =  -((σ d - μ) - log (∑ₚ exp (σ p - μ))),
  because `exp (σ p - μ) = exp (σ p) / exp μ` and `log (a / b) = log a - log b` for positive `a`, `b`. The left side is
  the row's loss as a sum of exponentials of the logits themselves; the right side is the negated entry of the shifted
  log-softmax. A running maximum over a row of reals, started from `-∞`, is a real, so the row's maximum is such a shift.
-/
import proofs.«409414_j79328045957202_3_alg».proof.Proof.Spec
import Mathlib.Analysis.SpecialFunctions.Log.Basic
import Mathlib.Analysis.SpecialFunctions.Exp

noncomputable section

namespace Cert.Loss

open Idealize.ShloMosaic

/-- A finite sum of real numbers, taken in the extended reals, is the real sum. -/
theorem coe_sum {ι : Type} (s : Finset ι) (f : ι → ℝ) : (∑ i ∈ s, (f i : EReal)) = ((∑ i ∈ s, f i : ℝ) : EReal) := by
  classical
  refine Finset.induction_on s (by simp) ?_
  intro a s ha ih
  rw [Finset.sum_insert ha, Finset.sum_insert ha, ih, EReal.coe_add]

/-- The maximum of two reals, taken in the extended reals, is the real maximum. -/
theorem coe_max' (a b : ℝ) : max (a : EReal) (b : EReal) = ((max a b : ℝ) : EReal) :=
  (EReal.coe_strictMono.monotone.map_max).symm

/-- A sum of extended reals each of which is a real is a real. -/
theorem sum_real {ι : Type} (s : Finset ι) (f : ι → EReal) (hf : ∀ i, ∃ x : ℝ, f i = (x : EReal)) :
    ∃ x : ℝ, (∑ i ∈ s, f i) = (x : EReal) := by
  choose g hg using hf
  exact ⟨∑ i ∈ s, g i, by rw [← coe_sum]; exact Finset.sum_congr rfl fun i _ => hg i⟩

/-- Shifting every exponent by `μ` shifts the logarithm of the sum by `μ`. -/
theorem real_lse_shift {n : ℕ} (hn : 0 < n) (σ : Fin n → ℝ) (μ : ℝ) :
    Real.log (∑ p, Real.exp (σ p - μ)) = Real.log (∑ p, Real.exp (σ p)) - μ := by
  have hpos : 0 < ∑ p, Real.exp (σ p) :=
    Finset.sum_pos (fun p _ => Real.exp_pos _) ⟨⟨0, hn⟩, Finset.mem_univ _⟩
  have h : ∑ p, Real.exp (σ p - μ) = (∑ p, Real.exp (σ p)) / Real.exp μ := by
    rw [Finset.sum_div]; exact Finset.sum_congr rfl fun p _ => Real.exp_sub _ _
  rw [h, Real.log_div hpos.ne' (Real.exp_pos μ).ne', Real.log_exp]

/-- The 2 of the logit is a real number. -/
theorem two_real : ∃ c : ℝ, two = (c : EReal) := by
  refine ⟨2, ?_⟩
  unfold two
  simp [Ideal.ofBits, Ideal.ieee, -EReal.coe_mul]; norm_num

/-- The logit of real rows against a real squared norm is a real number. -/
theorem simOf_real (f g : Fin 512 → EReal) (n2 : EReal) (hf : ∀ k, ∃ x : ℝ, f k = (x : EReal))
    (hg : ∀ k, ∃ y : ℝ, g k = (y : EReal)) (hn : ∃ z : ℝ, n2 = (z : EReal)) : ∃ σ : ℝ, simOf f g n2 = (σ : EReal) := by
  obtain ⟨a, ha⟩ := sum_real Finset.univ (fun k => f k * f k) (fun k => by
    obtain ⟨x, hx⟩ := hf k; exact ⟨x * x, by rw [hx, EReal.coe_mul]⟩)
  obtain ⟨b, hb⟩ := sum_real Finset.univ (fun k => f k * g k) (fun k => by
    obtain ⟨x, hx⟩ := hf k; obtain ⟨y, hy⟩ := hg k; exact ⟨x * y, by rw [hx, hy, EReal.coe_mul]⟩)
  obtain ⟨z, hz⟩ := hn
  obtain ⟨c, hc⟩ := two_real
  refine ⟨-(Real.sqrt (max (a + z - c * b) 0)), ?_⟩
  unfold simOf
  rw [ha, hb, hz, hc, ← EReal.coe_add, ← EReal.coe_mul, ← EReal.coe_sub, ← EReal.coe_zero, coe_max',
    Ideal.sqrt_coe, if_neg (not_lt.2 (le_max_right _ _)), ← EReal.coe_sub, zero_sub]

/-- A row's loss, whose logits are reals, equals the negated shifted log-softmax entry at any real shift `M`. -/
theorem lossOf_eq_shifted (f : Fin 512 → EReal) (G : Fin 1024 → Fin 512 → EReal) (N2 : Fin 1024 → EReal) (d : Fin 1024)
    (hf : ∀ k, ∃ x : ℝ, f k = (x : EReal)) (hG : ∀ p k, ∃ y : ℝ, G p k = (y : EReal))
    (hN : ∀ p, ∃ z : ℝ, N2 p = (z : EReal)) (M : EReal) (hM : ∃ μ : ℝ, M = (μ : EReal)) :
    lossOf f G N2 d
      = -((simOf f (G d) (N2 d) - M) - Ideal.log (∑ p : Fin 1024, Ideal.exp (simOf f (G p) (N2 p) - M))) := by
  choose σ hσ using fun p => simOf_real f (G p) (N2 p) hf (hG p) (hN p)
  obtain ⟨μ, rfl⟩ := hM
  have hpos : 0 < ∑ p, Real.exp (σ p) :=
    Finset.sum_pos (fun p _ => Real.exp_pos _) ⟨⟨0, by norm_num⟩, Finset.mem_univ _⟩
  have hpos' : 0 < ∑ p, Real.exp (σ p - μ) :=
    Finset.sum_pos (fun p _ => Real.exp_pos _) ⟨⟨0, by norm_num⟩, Finset.mem_univ _⟩
  have e1 : (∑ p : Fin 1024, Ideal.exp (simOf f (G p) (N2 p))) = ((∑ p, Real.exp (σ p) : ℝ) : EReal) := by
    rw [← coe_sum]; exact Finset.sum_congr rfl fun p _ => by rw [hσ p, Ideal.exp_coe]
  have e2 : (∑ p : Fin 1024, Ideal.exp (simOf f (G p) (N2 p) - (μ : EReal))) = ((∑ p, Real.exp (σ p - μ) : ℝ) : EReal) := by
    rw [← coe_sum]; exact Finset.sum_congr rfl fun p _ => by rw [hσ p, ← EReal.coe_sub, Ideal.exp_coe]
  unfold lossOf
  rw [e1, e2, Ideal.log_coe, Ideal.log_coe, if_neg (not_le.2 hpos), if_neg (not_le.2 hpos'), hσ d,
    real_lse_shift (by norm_num) σ μ, ← EReal.coe_sub, ← EReal.coe_sub, ← EReal.coe_sub, ← EReal.coe_neg]
  congr 1; ring

/-- A running maximum from `-∞` over a non-empty finite family of reals is a real. -/
theorem fold_max_real {n : ℕ} (hn : 0 < n) (s : Fin n → EReal) (hs : ∀ p, ∃ x : ℝ, s p = (x : EReal)) :
    ∃ μ : ℝ, (Finset.univ : Finset (Fin n)).fold max (⊥ : EReal) s = (μ : EReal) := by
  classical
  choose σ hσ using hs
  have key : ∀ t : Finset (Fin n), t.fold max (⊥ : EReal) s = ⊥ ∧ t = ∅ ∨ ∃ μ : ℝ, t.fold max (⊥ : EReal) s = (μ : EReal) := by
    intro t
    refine Finset.induction_on t (Or.inl ⟨Finset.fold_empty, rfl⟩) ?_
    intro a t ha ih
    right
    rw [Finset.fold_insert ha, hσ a]
    rcases ih with ⟨h, _⟩ | ⟨μ, h⟩
    · exact ⟨σ a, by rw [h]; exact max_eq_left bot_le⟩
    · exact ⟨max (σ a) μ, by rw [h, coe_max']⟩
  rcases key Finset.univ with ⟨_, h⟩ | h
  · exact absurd h (Finset.univ_nonempty_iff.2 ⟨⟨0, hn⟩⟩).ne_empty
  · exact h

end Cert.Loss

end
-- ==== Proof.RefSoftmax.lean ====
/-
  The reference's log-softmax entry at row `r`, column `d`, negated, is the row's loss at label `d` when the arrays hold
  reals: the logits are the spec's, the row maximum is a real shift, and the shift cancels.
-/
import proofs.«409414_j79328045957202_3_alg».proof.Proof.RefRead
import proofs.«409414_j79328045957202_3_alg».proof.Proof.RowMath
import Idealize.ShloMosaic.Lib.ValueIdx
import Idealize.ShloMosaic.Lib.ReduceAll

noncomputable section

namespace Cert.ReferenceIdeal.Softmax

open Cert.ReferenceIdeal Cert.ReferenceIdeal.Gen Cert.ReferenceIdeal.ReadP
open Idealize.ShloMosaic Idealize.ShloMosaic.ValueIdx

/-- The reference's logit at row `r`, prototype `p`: the negated distance, with the squared norms and the inner product
    written as sums over the 512 feature coordinates. -/
theorem v17_eq (X : (⟨S16384x512, .f32⟩ : BufTy).Contents (Elt Ideal)) (Y : (⟨S1024x512, .f32⟩ : BufTy).Contents (Elt Ideal))
    (r : Fin 16384) (p : Fin 1024) :
    val_main_v17 (F := Ideal) X Y (ix2 r p)
      = Cert.Loss.simOf (fun k => X (ix2 r k)) (fun k => Y (ix2 p k)) (Cert.Loss.norm2 Y p) := by
  rw [val_main_v17_apply, val_main_v16_apply, val_main_v15_apply, val_main_v13_apply, val_main_v14_apply,
    val_main_cst_2_apply, val_main_v10_apply, val_main_v12_apply, val_main_v11_apply, val_main_cst_1_apply,
    val_main_v8_apply, val_main_v9_apply, val_main_v2_apply, val_main_v5_apply, val_main_v1_apply, val_main_v4_apply,
    val_main_cst_apply, val_main_cst_0_apply, val_main_v7_apply]
  simp only [val_main_v0_apply, val_main_v3_apply, val_main_v6_apply]
  -- each index the stages read is the row's (or the prototype's) index at the summed coordinate
  have e1 : ∀ k : Fin 512, idx_main_v1 (idx_main_v2 (idx_main_v8 (ix2 r p))) k = ix2 r k := fun k =>
    funext fun a => Fin.ext (by match a with | ⟨0, _⟩ => rfl | ⟨1, _⟩ => rfl)
  have e4 : ∀ k : Fin 512, idx_main_v4 (idx_main_v5 (idx_main_v9 (ix2 r p))) k = ix2 p k := fun k =>
    funext fun a => Fin.ext (by match a with | ⟨0, _⟩ => rfl | ⟨1, _⟩ => rfl)
  have el : ∀ k : Fin 512, lidx_main_v7 (ix2 r p) k = ix2 r k := fun k =>
    funext fun a => Fin.ext (by match a with | ⟨0, _⟩ => rfl | ⟨1, _⟩ => rfl)
  have er : ∀ k : Fin 512, idx_main_v6 (ridx_main_v7 (ix2 r p) k) = ix2 p k := fun k =>
    funext fun a => Fin.ext (by match a with | ⟨0, _⟩ => rfl | ⟨1, _⟩ => rfl)
  simp only [e1, e4, el, er]
  simp only [Ideal.hostNegf_def, Ideal.negf_def, Ideal.hostUnary_sqrt_def, Ideal.maximumf_def, Ideal.subf_def,
    Ideal.addf_def, Ideal.mulf_def, Ideal.ofBits_def, Ideal.ofBits_zero_f32, zero_add]
  unfold Cert.Loss.simOf Cert.Loss.norm2 Cert.Loss.two
  rw [zero_sub]

/-- A prototype's squared norm is a real number when the prototypes hold reals. -/
theorem norm2_real (Y : (⟨S1024x512, .f32⟩ : BufTy).Contents (Elt Ideal)) (hY : ∀ i, ∃ y : ℝ, Y i = (y : EReal))
    (p : Fin 1024) : ∃ z : ℝ, Cert.Loss.norm2 Y p = (z : EReal) := by
  unfold Cert.Loss.norm2
  exact Cert.Loss.sum_real Finset.univ (fun k : Fin 512 => Y (ix2 p k) * Y (ix2 p k)) (fun k => by
    obtain ⟨y, hy⟩ := hY (ix2 p k); exact ⟨y * y, by rw [hy, EReal.coe_mul]⟩)

/-- Every logit of a row is a real number when both arrays hold reals. -/
theorem v17_real (X : (⟨S16384x512, .f32⟩ : BufTy).Contents (Elt Ideal)) (Y : (⟨S1024x512, .f32⟩ : BufTy).Contents (Elt Ideal))
    (hX : ∀ i, ∃ x : ℝ, X i = (x : EReal)) (hY : ∀ i, ∃ y : ℝ, Y i = (y : EReal)) (r : Fin 16384) (p : Fin 1024) :
    ∃ σ : ℝ, val_main_v17 (F := Ideal) X Y (ix2 r p) = (σ : EReal) := by
  rw [v17_eq]
  exact Cert.Loss.simOf_real _ _ _ (fun k => hX (ix2 r k)) (fun k => hY (ix2 p k)) (norm2_real Y hY p)

/-- The row maximum the reference subtracts — the running maximum of the row's logits from `-∞`, then the maximum of
    that with `-∞` — is a real number. -/
theorem rowMax_real (X : (⟨S16384x512, .f32⟩ : BufTy).Contents (Elt Ideal)) (Y : (⟨S1024x512, .f32⟩ : BufTy).Contents (Elt Ideal))
    (hX : ∀ i, ∃ x : ℝ, X i = (x : EReal)) (hY : ∀ i, ∃ y : ℝ, Y i = (y : EReal)) (r : Fin 16384) :
    ∃ μ : ℝ, val_main_call0_v2 (F := Ideal) X Y (ix1 r) = (μ : EReal) := by
  have hred : S16384x1024.Reduces [1] S16384 := by decide
  -- the pattern of the initial value is `-∞`
  have hbot : FloatOps.ofBits (F := Ideal) .f32 0xFF800000#32 = (⊥ : EReal) := by
    show Ideal.ofBits .f32 0xFF800000#32 = ⊥
    simp [Ideal.ofBits, Ideal.ieee]
  -- the row's index with the column inserted is `(r, p)`
  have hlift : (val_main_v17 (F := Ideal) X Y ∘ hred.lift (ix1 r))
      = fun p : Fin 1024 => val_main_v17 (F := Ideal) X Y (ix2 r p) :=
    funext fun p => congrArg (val_main_v17 (F := Ideal) X Y)
      (funext fun a => Fin.ext (by match a with | ⟨0, _⟩ => rfl | ⟨1, _⟩ => rfl))
  obtain ⟨μ, hμ⟩ := Cert.Loss.fold_max_real (n := 1024) (by norm_num)
    (fun p => val_main_v17 (F := Ideal) X Y (ix2 r p)) (fun p => v17_real X Y hX hY r p)
  refine ⟨μ, ?_⟩
  rw [val_main_call0_v2_apply, val_main_call0_v1_apply, val_main_call0_cst_0_apply]
  unfold val_main_call0_v0
  rw [Host.reduce_eq_fold_single FloatOps.maximumf _ _ reducesTo_S16384x1024_S16384_d1 hred h_S_ (ix1 r),
    val_main_call0_cst_apply, hbot, hlift]
  show max (⊥ : EReal) (Finset.fold max (⊥ : EReal) (fun p : Fin 1024 => val_main_v17 (F := Ideal) X Y (ix2 r p)) Finset.univ) = _
  rw [hμ]
  exact max_eq_right bot_le

/-- The shape of the reference's log-softmax entry at `(r, d)`: the logit less the row maximum, less the logarithm of the
    sum over the row of the exponentials of the logits less the row maximum. -/
theorem v18_shape (X : (⟨S16384x512, .f32⟩ : BufTy).Contents (Elt Ideal)) (Y : (⟨S1024x512, .f32⟩ : BufTy).Contents (Elt Ideal))
    (r : Fin 16384) (d : Fin 1024) :
    val_main_v18 (F := Ideal) X Y (ix2 r d)
      = (val_main_v17 (F := Ideal) X Y (ix2 r d) - val_main_call0_v2 (F := Ideal) X Y (ix1 r))
        - Ideal.log (∑ p : Fin 1024,
            Ideal.exp (val_main_v17 (F := Ideal) X Y (ix2 r p) - val_main_call0_v2 (F := Ideal) X Y (ix1 r))) := by
  simp only [val_main_v18_apply, val_main_call0_v5_apply, val_main_call0_v10_apply, val_main_call0_v9_apply,
    val_main_call0_v8_apply, val_main_call0_v7_apply, val_main_call0_cst_1_apply, val_main_call0_v6_apply,
    val_main_call0_v4_apply, val_main_call0_v3_apply]
  -- the broadcasts read the row's entry, the sum reads the row's columns
  have em : ∀ q : Fin 1024, idx_main_call0_v3 (idx_main_call0_v4 (ix2 r q)) = ix1 r := fun q =>
    funext fun a => Fin.ext (by match a with | ⟨0, _⟩ => rfl)
  have es : idx_main_call0_v8 (idx_main_call0_v10 (ix2 r d)) = ix1 r :=
    funext fun a => Fin.ext (by match a with | ⟨0, _⟩ => rfl)
  have ek : ∀ k : Fin 1024, idx_main_call0_v7 (ix1 r) k = ix2 r k := fun k =>
    funext fun a => Fin.ext (by match a with | ⟨0, _⟩ => rfl | ⟨1, _⟩ => rfl)
  simp only [es, ek, em]
  simp only [Ideal.subf_def, Ideal.hostUnary_log_def, Ideal.hostUnary_exp_def, Ideal.ofBits_def, Ideal.ofBits_zero_f32,
    zero_add]

/-- The negated log-softmax entry is the row's loss at that label. -/
theorem neg_v18 (X : (⟨S16384x512, .f32⟩ : BufTy).Contents (Elt Ideal)) (Y : (⟨S1024x512, .f32⟩ : BufTy).Contents (Elt Ideal))
    (hX : ∀ i, ∃ x : ℝ, X i = (x : EReal)) (hY : ∀ i, ∃ y : ℝ, Y i = (y : EReal)) (r : Fin 16384) (d : Fin 1024) :
    -(val_main_v18 (F := Ideal) X Y (ix2 r d))
      = Cert.Loss.lossOf (fun k => X (ix2 r k)) (fun p k => Y (ix2 p k)) (Cert.Loss.norm2 Y) d := by
  -- the entry is the shifted log-softmax of the spec's logits, the shift being the row maximum, a real number
  rw [v18_shape]
  simp only [v17_eq]
  exact (Cert.Loss.lossOf_eq_shifted (fun k => X (ix2 r k)) (fun p k => Y (ix2 p k)) (Cert.Loss.norm2 Y) d
    (fun k => hX (ix2 r k)) (fun p k => hY (ix2 p k)) (norm2_real Y hY) (val_main_call0_v2 (F := Ideal) X Y (ix1 r))
    (rowMax_real X Y hX hY r)).symm

end Cert.ReferenceIdeal.Softmax

end
-- ==== Proof.RefTake.lean ====
/-
  From the log-softmax to the result: with every label in [0, 1024) the reference's gather reads, for row `r`, the
  log-softmax entry at column `col D r` (the index is not negative, so it is not wrapped; it is in range, so the filled
  value is not taken), and the result is the sum of the negated entries divided by 16384.
-/
import proofs.«409414_j79328045957202_3_alg».proof.Proof.RefRead
import proofs.«409414_j79328045957202_3_alg».proof.Proof.Spec
import Idealize.ShloMosaic.Lib.ValueIdx
import Idealize.ShloMosaic.Lib.ValueIdxRank1
import Idealize.ShloMosaic.Lib.ReduceAll
import Idealize.ShloMosaic.Lib.StableHlo.Predicate

noncomputable section

namespace Cert.ReferenceIdeal.Take

open Cert.ReferenceIdeal Cert.ReferenceIdeal.Gen Cert.ReferenceIdeal.ReadP
open Idealize.ShloMosaic Idealize.ShloMosaic.ValueIdx

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduce by `and` from the constant 1 of an array of 1s is 1. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-- A label below 1024 is not negative as a signed word. -/
theorem slt_zero_of_lt (a : BitVec 32) (ha : a.toNat < 1024) : IntOp.cmpi .slt a 0#32 = 0#1 := by
  refine eq_zero_of_ne_one fun h => ?_
  have := (StableHlo.Predicate.slt_iff_toNat (a := a) (b := 0#32) (by omega) (by decide)).1 h
  exact absurd this (by simp)

/-- A label below 1024 is at least 0 as a signed word. -/
theorem sge_zero_of_lt (a : BitVec 32) (ha : a.toNat < 1024) : IntOp.cmpi .sge a 0#32 = 1#1 :=
  (StableHlo.Predicate.sge_iff_toNat (a := a) (b := 0#32) (by omega) (by decide)).2 (by simp)

/-- A label below 1024 is at most 1023 as a signed word. -/
theorem sle_1023_of_lt (a : BitVec 32) (ha : a.toNat < 1024) : IntOp.cmpi .sle a 1023#32 = 1#1 :=
  (StableHlo.Predicate.sle_iff_toNat (a := a) (b := 1023#32) (by omega) (by decide)).2
    (by have : (1023#32 : BitVec 32).toNat = 1023 := by decide
        omega)

/-- With every label below 1024 the start index of row `r` is the label itself: the wrap of a negative index is not
    taken. -/
theorem idx_word (D : (⟨S16384, .i32⟩ : BufTy).Contents (Elt Ideal)) (hD : ∀ i, (D i).toNat < 1024) (i : S16384x1x1.Idx) :
    val_main_call1_v5 (F := Ideal) D i = D (ix1 (⟨(i 0).val, (i 0).isLt⟩ : Fin 16384)) := by
  have hi : idx_main_v19 (idx_main_call1_v5 i) = ix1 (⟨(i 0).val, (i 0).isLt⟩ : Fin 16384) := by
    funext a
    match a with
    | ⟨0, _⟩ =>
      refine Fin.ext ?_
      have h1 : (i 1).val < 1 := (i 1).isLt
      have h2 : (i 2).val < 1 := (i 2).isLt
      show (((i 0).val * 1 + (i 1).val) * 1 + (i 2).val) / 1 = (i 0).val
      omega
  rw [val_main_call1_v5_apply, val_main_call1_v4_apply, val_main_call1_v1_apply, val_main_v19_apply,
    val_main_call1_v0_apply, val_main_call1_c_apply, hi, slt_zero_of_lt _ (hD _), select_zero]

/-- With every label below 1024 the in-range mask is 1 everywhere. -/
theorem mask_one (D : (⟨S16384, .i32⟩ : BufTy).Contents (Elt Ideal)) (hD : ∀ i, (D i).toNat < 1024) (y : S16384x1.Idx) :
    val_main_call1_v12 (F := Ideal) D y = 1#1 := by
  unfold val_main_call1_v12
  refine reduce_andi_ones _ _ _ _ (fun i => ?_) (fun k => rfl) y
  rw [val_main_call1_v11_apply, val_main_call1_v7_apply, val_main_call1_v10_apply, idx_word D hD,
    val_main_call1_v6_apply, val_main_call1_c_2_apply, val_main_call1_v9_apply, val_main_call1_v8_apply,
    val_main_call1_c_1_apply, sge_zero_of_lt _ (hD _), sle_1023_of_lt _ (hD _)]
  rfl

/-- THE GATHER READ AT ROW `r`: operand axis 0 is a batching axis paired with start-indices axis 0, operand axis 1 is
    collapsed and is the axis the start index addresses; so result element `(r, 0)` is the operand at row `r` and at
    the column `idx[r, 0, 0]`, read signed and clamped into `[0, 1023]`. -/
theorem gather_row_apply {α : Type} {w : Nat} (L : S16384x1024.Idx → α) (idx : IVec S16384x1x1 w) (y : S16384x1.Idx) :
    Host.gather gather_S16384x1024_S16384x1x1_S16384x1_n_1_0_0_1_2_11 L idx y
      = L (ix2 ⟨(y 0).val, idx2_lt0 y⟩ ⟨min (idx (takeIdx y)).toInt.toNat 1023, by omega⟩) := by
  unfold Host.gather
  congr 1
  funext a
  refine Fin.ext ?_
  match a with
  | ⟨0, _⟩ =>
    -- the batching axis: no start, no offset, the row of the result index
    have hb : (0 : Fin S16384x1024.rank) ∈ gather_S16384x1024_S16384x1x1_S16384x1_n_1_0_0_1_2_11.operandBatchingDims :=
      List.mem_singleton.mpr rfl
    show gather_S16384x1024_S16384x1x1_S16384x1_n_1_0_0_1_2_11.start y idx 0
      + gather_S16384x1024_S16384x1x1_S16384x1_n_1_0_0_1_2_11.batchCoord y 0
      + gather_S16384x1024_S16384x1x1_S16384x1_n_1_0_0_1_2_11.offCoord y 0 = (y 0).val
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    -- the collapsed axis: the clamped start index, no batching coordinate, no offset
    have hc : (1 : Fin S16384x1024.rank) ∈ gather_S16384x1024_S16384x1x1_S16384x1_n_1_0_0_1_2_11.collapsedSliceDims :=
      List.mem_singleton.mpr rfl
    have hm : (1 : Fin S16384x1024.rank) ∈ gather_S16384x1024_S16384x1x1_S16384x1_n_1_0_0_1_2_11.startIndexMap :=
      List.mem_singleton.mpr rfl
    show gather_S16384x1024_S16384x1x1_S16384x1_n_1_0_0_1_2_11.start y idx 1
      + gather_S16384x1024_S16384x1x1_S16384x1_n_1_0_0_1_2_11.batchCoord y 1
      + gather_S16384x1024_S16384x1x1_S16384x1_n_1_0_0_1_2_11.offCoord y 1 = min (idx (takeIdx y)).toInt.toNat 1023
    rw [GatherDims.batchCoord_eq_zero _ _ _ (fun h => absurd (List.mem_singleton.mp h) (by decide)),
      GatherDims.offCoord_eq_zero _ _ _ (fun h => ((GatherDims.mem_sKept _ _).mp h).1 hc)]
    simp only [Nat.add_zero]
    unfold GatherDims.start
    rw [dif_pos hm]
    have hsi : gather_S16384x1024_S16384x1x1_S16384x1_n_1_0_0_1_2_11.siIdx y
        ⟨List.idxOf (1 : Fin S16384x1024.rank) gather_S16384x1024_S16384x1x1_S16384x1_n_1_0_0_1_2_11.startIndexMap,
          List.idxOf_lt_length_iff.2 hm⟩ = takeIdx y := by
      funext b; refine Fin.ext ?_
      match b with
      | ⟨0, _⟩ => rfl
      | ⟨1, _⟩ => rfl
      | ⟨2, _⟩ => rfl
    rw [hsi]
    rfl

/-- Row `r`'s negated entry: with every label below 1024 the mask is 1, so the gathered value is taken, and the gather
    reads the log-softmax at row `r` and at the label's own column. -/
theorem row_entry (X : (⟨S16384x512, .f32⟩ : BufTy).Contents (Elt Ideal)) (Y : (⟨S1024x512, .f32⟩ : BufTy).Contents (Elt Ideal))
    (D : (⟨S16384, .i32⟩ : BufTy).Contents (Elt Ideal)) (hD : ∀ i, (D i).toNat < 1024) (r : Fin 16384) :
    val_main_v22 (F := Ideal) X Y D (ix1 r) = -(val_main_v18 (F := Ideal) X Y (ix2 r (Cert.Loss.col D r))) := by
  have hy : idx_main_v21 (ix1 r) = ix2 r (0 : Fin 1) := by
    funext a
    match a with
    | ⟨0, _⟩ => exact Fin.ext (Nat.div_one _)
    | ⟨1, _⟩ => rfl
  -- a label below 1024 reads the same signed, is not clamped, and is its own residue
  have hcol : min (D (ix1 r)).toInt.toNat 1023 = (D (ix1 r)).toNat % 1024 := by
    have h := hD (ix1 r)
    rw [StableHlo.Predicate.toInt_eq_toNat_of_lt (by omega), Int.toNat_natCast, Nat.mod_eq_of_lt h]
    omega
  rw [val_main_v22_apply, val_main_v21_apply, hy, val_main_v20_apply, mask_one D hD, select_one]
  unfold val_main_call1_v13
  generalize val_main_v18 (F := Ideal) X Y = L
  rw [gather_row_apply, Ideal.hostNegf_def, Ideal.negf_def]
  congr 2
  funext a
  match a with
  | ⟨0, _⟩ => rfl
  | ⟨1, _⟩ =>
    refine Fin.ext ?_
    show min (val_main_call1_v5 (F := Ideal) D (takeIdx (ix2 r (0 : Fin 1)))).toInt.toNat 1023 = (D (ix1 r)).toNat % 1024
    rw [idx_word D hD]
    exact hcol

/-- The result, from the log-softmax stage. -/
theorem v24_of_v18 (X : (⟨S16384x512, .f32⟩ : BufTy).Contents (Elt Ideal)) (Y : (⟨S1024x512, .f32⟩ : BufTy).Contents (Elt Ideal))
    (D : (⟨S16384, .i32⟩ : BufTy).Contents (Elt Ideal)) (hD : ∀ i, (D i).toNat < 1024) :
    val_main_v24 (F := Ideal) X Y D
      = fun _ => Ideal.div (∑ r : Fin 16384, -(val_main_v18 (F := Ideal) X Y (ix2 r (Cert.Loss.col D r)))) Cert.Loss.count := by
  funext i
  rw [val_main_v24_apply, val_main_v23_apply, val_main_cst_4_apply, val_main_cst_3_apply, Ideal.hostDivf_def,
    Ideal.ofBits_def, Ideal.ofBits_def, Ideal.ofBits_zero_f32, zero_add]
  unfold Cert.Loss.count
  -- the sum over the rank-1 index set is the sum over the rows
  have key : (∑ j : S16384.Idx, val_main_v22 (F := Ideal) X Y D j)
      = ∑ r : Fin 16384, -(val_main_v18 (F := Ideal) X Y (ix2 r (Cert.Loss.col D r))) :=
    (Fintype.sum_equiv idxEquiv1.symm _ _ (fun r => (row_entry X Y D hD r).symm)).symm
  rw [key]

end Cert.ReferenceIdeal.Take

end
-- ==== Proof.RefValue.lean ====
/-
  The reference program's result is the mean loss.

  When the two float arrays hold reals and every label is in [0, 1024): the reference's result is the sum over the rows
  of the negated log-softmax entry at the row's label, divided by 16384, and each such entry, negated, is the row's loss
  (the row maximum the log-softmax subtracts is a real shift, and it cancels). Its run is read off the fold of its
  operations' results.
-/
import proofs.«409414_j79328045957202_3_alg».proof.Proof.RefStages
import proofs.«409414_j79328045957202_3_alg».proof.Proof.RefSoftmax
import proofs.«409414_j79328045957202_3_alg».proof.Proof.RefTake

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo Idealize.ShloMosaic.ValueIdx

/-- The last stage is the mean loss. -/
theorem value (X : (⟨S16384x512, .f32⟩ : BufTy).Contents (Elt Ideal)) (Y : (⟨S1024x512, .f32⟩ : BufTy).Contents (Elt Ideal))
    (D : (⟨S16384, .i32⟩ : BufTy).Contents (Elt Ideal))
    (hX : ∀ i, ∃ x : ℝ, X i = (x : EReal)) (hY : ∀ i, ∃ y : ℝ, Y i = (y : EReal)) (hD : ∀ i, (D i).toNat < 1024) :
    val_main_v24 (F := Ideal) X Y D = fun _ => Cert.Loss.loss X Y D := by
  rw [Cert.ReferenceIdeal.Take.v24_of_v18 X Y D hD]
  funext _
  unfold Cert.Loss.loss
  refine congrArg (Ideal.div · Cert.Loss.count) (Finset.sum_congr rfl fun r _ => ?_)
  rw [Cert.ReferenceIdeal.Softmax.neg_v18 X Y hX hY r (Cert.Loss.col D r)]
  rfl

/-- The run: every weakly fair execution terminates with the result at the last stage of the arguments and the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24)
          = val_main_v24 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_v24).trans (Cert.ReferenceIdeal.Stages.after_ops_v24 (launchContents m c)),
      (h c main_arg0).trans (Cert.ReferenceIdeal.Stages.after_ops_arg0 (launchContents m c)),
      (h c main_arg1).trans (Cert.ReferenceIdeal.Stages.after_ops_arg1 (launchContents m c)),
      (h c main_arg2).trans (Cert.ReferenceIdeal.Stages.after_ops_arg2 (launchContents m c))⟩)
    (run_after m ρ)

end Cert.ReferenceIdeal.RefValue

end
-- ==== Proof.lean ====
/- The proof of `Cert.Claim` (proofs.«409414_j79328045957202_3_alg».proof.Defs).

   Both programs compute, from features X [16384, 512], prototypes Y [1024, 512] and labels D [16384], the mean over the
   rows r of
       log (∑ₚ exp s(r, p)) - s(r, D r),      s(r, p) = -√(max (‖X r‖² + ‖Y p‖² - 2 ⟨X r, Y p⟩) 0).
   The kernel runs a 2 × 8 grid over blocks of 1024 rows: each point adds its block's sum of row losses to an accumulator
   restarted at the first point of each run of eight, the last point of a run writes the accumulator out, and the host adds
   the two runs and divides by 16384 (Proof/KPieces, KAccum, KFinal, KRun, KBlocks, PayRow, KValue). The reference takes a
   log-softmax, which first subtracts the row's maximum, gathers the entry at the row's label and averages the negated
   entries (Proof/RefRun, RefRead, RefStages, RefSoftmax, RefTake, RefValue). Over the extended reals the two agree where
   every entry of X and Y is a real number, so that the subtracted maximum is a real shift that cancels (Proof/RowMath),
   and where every label is in [0, 1024): there the kernel's clip of the label is the label, and the reference's gather
   neither wraps the index nor fills the entry (Proof/PreFacts reads both facts out of the precondition). Regrouping the sum
   over 16384 rows into two runs of eight blocks of 1024 rows needs only that addition of extended reals is commutative and
   associative (Proof/SumMath). The ideal pass rewrote nothing, so the kernel's idealization is its own text read over the
   extended reals. -/
import proofs.«409414_j79328045957202_3_alg».proof.Defs
import proofs.«409414_j79328045957202_3_alg».proof.Proof.Gen.Kernel
import proofs.«409414_j79328045957202_3_alg».proof.Proof.Gen.Kernel.Frame
import proofs.«409414_j79328045957202_3_alg».proof.Proof.Gen.KernelIdeal
import proofs.«409414_j79328045957202_3_alg».proof.Proof.Gen.KernelIdeal.Frame
import proofs.«409414_j79328045957202_3_alg».proof.Proof.Gen.ReferenceIdeal
import proofs.«409414_j79328045957202_3_alg».proof.Proof.Gen.Pre_finite_inputs
import proofs.«409414_j79328045957202_3_alg».proof.Proof.PreFacts
import proofs.«409414_j79328045957202_3_alg».proof.Proof.KValue
import proofs.«409414_j79328045957202_3_alg».proof.Proof.RefValue
import Idealize.ShloMosaic.Adequacy
import Idealize.ShloMosaic.Init

noncomputable section

namespace Cert.Proof

open Idealize.ShloMosaic Idealize.ShloMosaic.TcCoe Idealize.SL.Sem

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.RefValue.run m ρ)

/-- From memories agreeing on the arguments, under the precondition, both programs end with the mean loss of the
    arguments as their result. -/
theorem algebraic : Cert.algebraic_KernelIdeal_ReferenceIdeal := by
  intro m ρ m' ρ' hpre hagree
  have hp := fun c => Cert.Loss.pre_facts _ _ _ (hpre c)
  refine ⟨fun c => fun _ => Cert.Loss.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.KValue.result_value m c (hp c).2.2), (h c).2⟩)
      (Cert.KernelIdeal.Accum.run m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2]
    exact Cert.ReferenceIdeal.RefValue.value _ _ _ (hp c).1 (hp c).2.1 (hp c).2.2

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_reference, trivial, algebraic⟩

end Cert.Proof

end
